-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S32x256 : Shape := ⟨2, ![32, 256]⟩
abbrev S32 : Shape := ⟨1, ![32]⟩
abbrev S256x32 : Shape := ⟨2, ![256, 32]⟩
abbrev S256 : Shape := ⟨1, ![256]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S32x256 : S_.BroadcastsInDim S32x256 (![] : Fin 0 → Fin S32x256.rank)
  reducesTo_S32x256_S_d0_1 : S32x256.ReducesTo [0, 1] S_
  bcast_S_S32 : S_.BroadcastsInDim S32 (![] : Fin 0 → Fin S32.rank)
  reducesTo_S32_S_d0 : S32.ReducesTo [0] S_
  bcast_S_S256x32 : S_.BroadcastsInDim S256x32 (![] : Fin 0 → Fin S256x32.rank)
  reducesTo_S256x32_S_d0_1 : S256x32.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x32 1) : IVec S_ 1 :=
  let main_c_5 : IVec S_ 1 := constantI S_ 1 1#1
  let main_v17 : IVec S_ 1 := (fun x v => Host.reduce IntOp.andi x v reducesTo_S256x32_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S32x256x64x64 .f32) (main_arg1 : FVec F S32x256 .f32) (main_arg2 : FVec F S32 .f32) (main_arg3 : FVec F S256x32 .f32) (main_arg4 : FVec F S256 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S32x256 .f32 := Host.absf main_arg1
  let main_cst_0 : FVec F S_ .f32 := constant S_ .f32 0x7F800000#32
  let main_v5 : FVec F S32x256 .f32 := broadcastInDim S32x256 ![] bcast_S_S32x256 main_cst_0
  let main_v6 : IVec S32x256 1 := cmpf .olt main_v4 main_v5
  let main_c_1 : IVec S_ 1 := constantI S_ 1 1#1
  let main_v7 : IVec S_ 1 := (fun x v => Host.reduce IntOp.andi x v reducesTo_S32x256_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S256x32 .f32 := Host.absf main_arg3
  let main_cst_4 : FVec F S_ .f32 := constant S_ .f32 0x7F800000#32
  let main_v15 : FVec F S256x32 .f32 := broadcastInDim S256x32 ![] bcast_S_S256x32 main_cst_4
  let main_v16 : IVec S256x32 1 := cmpf .olt main_v14 main_v15
  fn_part1 (F := F) main_arg4 main_v13 main_v16
-- ==== Kernel.lean ====
abbrev S32x256x64x64 : Shape := ⟨4, ![32, 256, 64, 64]⟩
abbrev S32x256 : Shape := ⟨2, ![32, 256]⟩
abbrev S32 : Shape := ⟨1, ![32]⟩
abbrev S256x32 : Shape := ⟨2, ![256, 32]⟩
abbrev S256 : Shape := ⟨1, ![256]⟩
abbrev S32x256x4096 : Shape := ⟨3, ![32, 256, 4096]⟩
abbrev S16x256x1024 : Shape := ⟨3, ![16, 256, 1024]⟩
abbrev S16x256 : Shape := ⟨2, ![16, 256]⟩
abbrev S32x32 : Shape := ⟨2, ![32, 32]⟩
abbrev S1x32 : Shape := ⟨2, ![1, 32]⟩
abbrev S_ : Shape := ⟨0, ![]⟩
abbrev S1x256 : Shape := ⟨2, ![1, 256]⟩
abbrev S8x256x512 : Shape := ⟨3, ![8, 256, 512]⟩
abbrev S8x256 : Shape := ⟨2, ![8, 256]⟩
abbrev S8x256x1 : Shape := ⟨3, ![8, 256, 1]⟩

abbrev nBuf : Space → Nat
  | .hbm => 28
  | .vmem => 11
  | .smem => 0
  | _ => 0

abbrev bufTy : (tb : Table) → Fin (tcTables nBuf tb) → BufTy
  | .hbm, ⟨0, _⟩ => ⟨S32x256x64x64, .f32⟩
  | .hbm, ⟨1, _⟩ => ⟨S32x256, .f32⟩
  | .hbm, ⟨2, _⟩ => ⟨S32, .f32⟩
  | .hbm, ⟨3, _⟩ => ⟨S256x32, .f32⟩
  | .hbm, ⟨4, _⟩ => ⟨S256, .f32⟩
  | .hbm, ⟨5, _⟩ => ⟨S32x256x4096, .f32⟩
  | .hbm, ⟨6, _⟩ => ⟨S32x256, .f32⟩
  | .hbm, ⟨7, _⟩ => ⟨S32x32, .f32⟩
  | .hbm, ⟨8, _⟩ => ⟨S1x32, .f32⟩
  | .hbm, ⟨9, _⟩ => ⟨S32x32, .f32⟩
  | .hbm, ⟨10, _⟩ => ⟨S32x32, .f32⟩
  | .hbm, ⟨11, _⟩ => ⟨S_, .f32⟩
  | .hbm, ⟨12, _⟩ => ⟨S32x32, .f32⟩
  | .hbm, ⟨13, _⟩ => ⟨S32x32, .f32⟩
  | .hbm, ⟨14, _⟩ => ⟨S32x256, .f32⟩
  | .hbm, ⟨15, _⟩ => ⟨S1x256, .f32⟩
  | .hbm, ⟨16, _⟩ => ⟨S32x256, .f32⟩
  | .hbm, ⟨17, _⟩ => ⟨S32x256, .f32⟩
  | .hbm, ⟨18, _⟩ => ⟨S32x256, .f32⟩
  | .hbm, ⟨19, _⟩ => ⟨S32x256, .f32⟩
  | .hbm, ⟨20, _⟩ => ⟨S_, .f32⟩
  | .hbm, ⟨21, _⟩ => ⟨S32x256, .f32⟩
  | .hbm, ⟨22, _⟩ => ⟨S32x256, .f32⟩
  | .hbm, ⟨23, _⟩ => ⟨S_, .f32⟩
  | .hbm, ⟨24, _⟩ => ⟨S32x256, .f32⟩
  | .hbm, ⟨25, _⟩ => ⟨S32x256, .f32⟩
  | .hbm, ⟨26, _⟩ => ⟨S32x256x4096, .f32⟩
  | .hbm, ⟨27, _⟩ => ⟨S32x256x64x64, .f32⟩
  | .local _ .vmem, ⟨0, _⟩ => ⟨S16x256x1024, .f32⟩
  | .local _ .vmem, ⟨1, _⟩ => ⟨S16x256x1024, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S8x256x512, .f32⟩
  | .local _ .vmem, ⟨6, _⟩ => ⟨S8x256x512, .f32⟩
  | .local _ .vmem, ⟨7, _⟩ => ⟨S8x256, .f32⟩
  | .local _ .vmem, ⟨8, _⟩ => ⟨S8x256, .f32⟩
  | .local _ .vmem, ⟨9, _⟩ => ⟨S8x256x512, .f32⟩
  | .local _ .vmem, ⟨10, _⟩ => ⟨S8x256x512, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_cst : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S8x256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8x256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S32x256x64x64_S32x256x4096 : S32x256x64x64.ShapeCasts S32x256x4096
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S16x256x1024_S16x256x1024_0_0_0 : ∀ a, (![0, 0, 0] : Fin 3 → Nat) a + S16x256x1024.size a ≤ S16x256x1024.size a
  h_S16x256x1024 : 0 < S16x256x1024.numel
  shapeCasts_S16x256x1024_S16x256x1024 : S16x256x1024.ShapeCasts S16x256x1024
  reduces_S16x256x1024_S16x256 : S16x256x1024.Reduces [2] S16x256
  bcast_S32_S1x32_1 : S32.BroadcastsInDim S1x32 (![1] : Fin 1 → Fin S1x32.rank)
  bcast_S1x32_S32x32_0_1 : S1x32.BroadcastsInDim S32x32 (![0, 1] : Fin 2 → Fin S32x32.rank)
  bcast_S_S32x32 : S_.BroadcastsInDim S32x32 (![] : Fin 0 → Fin S32x32.rank)
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S_S32x256 : S_.BroadcastsInDim S32x256 (![] : Fin 0 → Fin S32x256.rank)
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S8x256x512_S8x256x512_0_0_0 : ∀ a, (![0, 0, 0] : Fin 3 → Nat) a + S8x256x512.size a ≤ S8x256x512.size a
  h_S8x256x512 : 0 < S8x256x512.numel
  shapeCasts_S8x256x512_S8x256x512 : S8x256x512.ShapeCasts S8x256x512
  shapeCasts_S8x256_S8x256x1 : S8x256.ShapeCasts S8x256x1
  broadcasts_S8x256x1_S8x256x512 : S8x256x1.Broadcasts S8x256x512
  shapeCasts_S32x256x4096_S32x256x64x64 : S32x256x4096.ShapeCasts S32x256x64x64
  dot_S32x256_S32x256_S32x32_1_1_0_0_n_n_wf : DotDims.WF S32x256 S32x256 S32x32 [1] [1] [0] [0] [] []
  dot_S32x32_S256x32_S32x256_1_1_0_0_n_n_wf : DotDims.WF S32x32 S256x32 S32x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x1024.size a ≤ S32x256x4096.size a
  hwx0_0 : ∀ i : grid0.Coords, EltTy.bits .f32 = 32 ∨ (Rect.block (s := S32x256x4096) S16x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S32x256.size a
  hwx0_1 : ∀ i : grid0.Coords, EltTy.bits .f32 = 32 ∨ (Rect.block (s := S32x256) S16x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x512.size a ≤ S32x256x4096.size a
  hwx1_0 : ∀ i : grid1.Coords, EltTy.bits .f32 = 32 ∨ (Rect.block (s := S32x256x4096) S8x256x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256.size a ≤ S32x256.size a
  hwx1_1 : ∀ i : grid1.Coords, EltTy.bits .f32 = 32 ∨ (Rect.block (s := S32x256) S8x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x256x512.size a ≤ S32x256x4096.size a
  hwx1_2 : ∀ i : grid1.Coords, EltTy.bits .f32 = 32 ∨ (Rect.block (s := S32x256x4096) S8x256x512.size (cc1_transform_2 i) (hinb1_2 i)).WholeWords (EltTy.packing .f32)

variable [Facts₀]

def dot_S32x256_S32x256_S32x32_1_1_0_0_n_n : DotDims S32x256 S32x256 S32x32 where
  lhsContracting := [1]
  rhsContracting := [1]
  lhsNonContracting := [0]
  rhsNonContracting := [0]
  lhsBatch := []
  rhsBatch := []
  wf := dot_S32x256_S32x256_S32x32_1_1_0_0_n_n_wf
def dot_S32x32_S256x32_S32x256_1_1_0_0_n_n : DotDims S32x32 S256x32 S32x256 where
  lhsContracting := [1]
  rhsContracting := [1]
  lhsNonContracting := [0]
  rhsNonContracting := [0]
  lhsBatch := []
  rhsBatch := []
  wf := dot_S32x32_S256x32_S32x256_1_1_0_0_n_n_wf

abbrev win0_0 : Pipeline.Window sig grid0 :=
  Pipeline.Window.ofSpec (Memref.whole main_v0) S16x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v0) S8x256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S8x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S8x256x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x256x64x64 : Shape := ⟨4, ![32, 256, 64, 64]⟩
abbrev S32x256 : Shape := ⟨2, ![32, 256]⟩
abbrev S32 : Shape := ⟨1, ![32]⟩
abbrev S256x32 : Shape := ⟨2, ![256, 32]⟩
abbrev S256 : Shape := ⟨1, ![256]⟩
abbrev S_ : Shape := ⟨0, ![]⟩
abbrev S32x32 : Shape := ⟨2, ![32, 32]⟩
abbrev S1x32 : Shape := ⟨2, ![1, 32]⟩
abbrev S1x256 : Shape := ⟨2, ![1, 256]⟩
abbrev S32x256x1x1 : Shape := ⟨4, ![32, 256, 1, 1]⟩

abbrev nBuf : Space → Nat
  | .hbm => 32
  | .vmem => 0
  | .smem => 0
  | _ => 0

abbrev bufTy : (tb : Table) → Fin (tcTables nBuf tb) → BufTy
  | .hbm, ⟨0, _⟩ => ⟨S32x256x64x64, .f32⟩
  | .hbm, ⟨1, _⟩ => ⟨S32x256, .f32⟩
  | .hbm, ⟨2, _⟩ => ⟨S32, .f32⟩
  | .hbm, ⟨3, _⟩ => ⟨S256x32, .f32⟩
  | .hbm, ⟨4, _⟩ => ⟨S256, .f32⟩
  | .hbm, ⟨5, _⟩ => ⟨S_, .f32⟩
  | .hbm, ⟨6, _⟩ => ⟨S32x256, .f32⟩
  | .hbm, ⟨7, _⟩ => ⟨S_, .f32⟩
  | .hbm, ⟨8, _⟩ => ⟨S32x256, .f32⟩
  | .hbm, ⟨9, _⟩ => ⟨S32x256, .f32⟩
  | .hbm, ⟨10, _⟩ => ⟨S32x32, .f32⟩
  | .hbm, ⟨11, _⟩ => ⟨S1x32, .f32⟩
  | .hbm, ⟨12, _⟩ => ⟨S32x32, .f32⟩
  | .hbm, ⟨13, _⟩ => ⟨S32x32, .f32⟩
  | .hbm, ⟨14, _⟩ => ⟨S_, .f32⟩
  | .hbm, ⟨15, _⟩ => ⟨S32x32, .f32⟩
  | .hbm, ⟨16, _⟩ => ⟨S32x32, .f32⟩
  | .hbm, ⟨17, _⟩ => ⟨S32x256, .f32⟩
  | .hbm, ⟨18, _⟩ => ⟨S1x256, .f32⟩
  | .hbm, ⟨19, _⟩ => ⟨S32x256, .f32⟩
  | .hbm, ⟨20, _⟩ => ⟨S32x256, .f32⟩
  | .hbm, ⟨21, _⟩ => ⟨S32x256, .f32⟩
  | .hbm, ⟨22, _⟩ => ⟨S32x256, .f32⟩
  | .hbm, ⟨23, _⟩ => ⟨S_, .f32⟩
  | .hbm, ⟨24, _⟩ => ⟨S32x256, .f32⟩
  | .hbm, ⟨25, _⟩ => ⟨S32x256, .f32⟩
  | .hbm, ⟨26, _⟩ => ⟨S_, .f32⟩
  | .hbm, ⟨27, _⟩ => ⟨S32x256, .f32⟩
  | .hbm, ⟨28, _⟩ => ⟨S32x256, .f32⟩
  | .hbm, ⟨29, _⟩ => ⟨S32x256x1x1, .f32⟩
  | .hbm, ⟨30, _⟩ => ⟨S32x256x64x64, .f32⟩
  | .hbm, ⟨31, _⟩ => ⟨S32x256x64x64, .f32⟩
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  reducesTo_S32x256x64x64_S32x256_d2_3 : S32x256x64x64.ReducesTo [2, 3] S32x256
  h_S_ : 0 < S_.numel
  bcast_S_S32x256 : S_.BroadcastsInDim S32x256 (![] : Fin 0 → Fin S32x256.rank)
  bcast_S32_S1x32_1 : S32.BroadcastsInDim S1x32 (![1] : Fin 1 → Fin S1x32.rank)
  bcast_S1x32_S32x32_0_1 : S1x32.BroadcastsInDim S32x32 (![0, 1] : Fin 2 → Fin S32x32.rank)
  bcast_S_S32x32 : S_.BroadcastsInDim S32x32 (![] : Fin 0 → Fin S32x32.rank)
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S32x256_S32x256x1x1_0_1 : S32x256.BroadcastsInDim S32x256x1x1 (![0, 1] : Fin 2 → Fin S32x256x1x1.rank)
  bcast_S32x256x1x1_S32x256x64x64_0_1_2_3 : S32x256x1x1.BroadcastsInDim S32x256x64x64 (![0, 1, 2, 3] : Fin 4 → Fin S32x256x64x64.rank)
  dot_S32x256_S32x256_S32x32_1_1_0_0_n_n_wf : DotDims.WF S32x256 S32x256 S32x32 [1] [1] [0] [0] [] []
  dot_S32x32_S256x32_S32x256_1_1_0_0_n_n_wf : DotDims.WF S32x32 S256x32 S32x256 [1] [1] [0] [0] [] []

variable [Facts₀]

def dot_S32x256_S32x256_S32x32_1_1_0_0_n_n : DotDims S32x256 S32x256 S32x32 where
  lhsContracting := [1]
  rhsContracting := [1]
  lhsNonContracting := [0]
  rhsNonContracting := [0]
  lhsBatch := []
  rhsBatch := []
  wf := dot_S32x256_S32x256_S32x32_1_1_0_0_n_n_wf
def dot_S32x32_S256x32_S32x256_1_1_0_0_n_n : DotDims S32x32 S256x32 S32x256 where
  lhsContracting := [1]
  rhsContracting := [1]
  lhsNonContracting := [0]
  rhsNonContracting := [0]
  lhsBatch := []
  rhsBatch := []
  wf := dot_S32x32_S256x32_S32x256_1_1_0_0_n_n_wf

class Facts : Prop extends Facts₀ where

variable [Facts]
-- ==== Proof.Kernel.PoolBase.lean ====
/-
  Region 0 (the pooling kernel, grid 2 × 4) at a parameter `V`, the buffer contents when the region is entered:
  what its runs are stated over. Point `t` is `(t / 4, t % 4)`; the body resets its accumulator where `t % 4 = 0`,
  adds the block's lane sums at every point, and stores the scaled accumulator into the output block where
  `t % 4 = 3` — the only points where the output window is live and written back.
-/
import proofs.«131701_j49709951484604_1_alg».proof.Proof.Gen.Kernel.Launch
import proofs.«131701_j49709951484604_1_alg».proof.Proof.Gen.Kernel.Skeleton
import proofs.«131701_j49709951484604_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input block at a point -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions, decided over the grid -/

/-- "This is the first step along the reduced axis": the reset's condition. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 4 = 0 :=
  (by decide +kernel : ∀ t : Fin grid0.N, isFirst (grid0.coords t) ↔ t.val % 4 = 0)

/-- "This is the last step along the reduced axis": the output store's condition. -/
abbrev isLast (i : grid0.Coords) : Prop := k0_cond2 i = 1#1
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

theorem live0_in : ∀ t : Fin cfg0.N, cfg0.idle 0 (grid0.coords t) = false := by decide +kernel
/-- Off the last step the output window is idle and its block is not written back. -/
theorem idle0_out : ∀ t : Fin cfg0.N, ¬isLast (grid0.coords t) → cfg0.idle 1 (grid0.coords t) = true := by decide +kernel
theorem noFlush0_out : ∀ t : Fin cfg0.N, ¬isLast (grid0.coords t) → (cfg0.win 1).flush t = false := by decide +kernel
/-- At the last step it is live. -/
theorem live0_out : ∀ t : Fin cfg0.N, isLast (grid0.coords t) → cfg0.idle 1 (grid0.coords t) = false := by decide +kernel

/-! ## The memrefs the body is called with -/

abbrev inM (t : Fin cfg0.N) : Memref sig .tc .vmem S16x256x1024 .f32 := win0_0.stage (cfg0.slots t 0)
abbrev inM_whole (t : Fin cfg0.N) : (inM t).IsWhole := hstage0_0 ((cfg0.slots t 0).cast nbuf0_0)
abbrev outM (t : Fin cfg0.N) : Memref sig .tc .vmem S16x256 .f32 := win0_1.stage (cfg0.slots t 1)
abbrev outM_whole (t : Fin cfg0.N) : (outM t).IsWhole := hstage0_1 ((cfg0.slots t 1).cast nbuf0_1)
/-- The accumulator: a whole scoped buffer of the kernel's own. -/
abbrev accM : Memref sig .tc .vmem S16x256 .f32 := Memref.whole cc0_scratch0
/-- Views through which the output's and the accumulator's contents are stated. -/
abbrev outV : View sig .tc .vmem S16x256 .f32 := (Memref.whole cc0_stg1_0 : Memref sig .tc .vmem S16x256 .f32).view
abbrev accV : View sig .tc .vmem S16x256 .f32 := accM.view

/-- The class invariant with the accumulator named: the accumulator at some contents, the other scoped buffers of the
    core, and the generator register at some state. -/
theorem PhiA0_eq (c : Dev nD) :
    (Pipeline.ΦA spec0 c : sProp 𝕄)
      = iprop(iprop((∃ d, owns (c : Thread nD τ) accM fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ r, prngReg c r)) := by
  unfold Pipeline.ΦA; rw [scopedRest0_eq]; simp only [accM, owns_whole]; try rfl

end Cert.Kernel.Hand

end
-- ==== Proof.Kernel.PoolRuns.lean ====
/-
  Region 0's body, run once per control case on whole staging memrefs. The reduced axis has four steps:
  FIRST (reset the accumulator, then add the block's lane sums), MIDDLE (add), LAST (add, then store the scaled
  accumulator into the output block). Each run yields, as lists of pieces (last store first), what the accumulator
  and the output buffer end holding; a buffer the case does not store into is handed back untouched.
-/
import proofs.«131701_j49709951484604_1_alg».proof.Proof.Gen.Kernel.Launch
import proofs.«131701_j49709951484604_1_alg».proof.Proof.Gen.Kernel.Skeleton
import proofs.«131701_j49709951484604_1_alg».proof.Proof.Gen.Kernel.Points
import proofs.«131701_j49709951484604_1_alg».proof.Proof.Kernel.PoolBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- FIRST step: the accumulator starts at anything; the output buffer is handed back as found. -/
noncomputable def runFirst (c : Dev nD) (i : grid0.Coords) (arg2 : Memref sig .tc .vmem S16x256x1024 .f32) (harg2 : arg2.IsWhole) (arg3 : Memref sig .tc .vmem S16x256 .f32) (harg3 : arg3.IsWhole) (arg4 : Memref sig .tc .vmem S16x256 .f32) (harg4 : arg4.IsWhole) (hF : isFirst i) (hL : ¬isLast i)
    (x0 : Vec F S16x256x1024 .f32) :
    Σ' (L1 : List (View.Piece (Elt F) S16x256 .f32)), { LS0 : List (View.Piece (Elt F) S16x256 .f32) //
      ∀ (xi1 : Vec F S16x256 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__pool_kernel i arg2 harg2 arg3 harg3 arg4 harg4) K } := by
  refine ⟨[], ?_, fun xi1 E K => ?run⟩
  case run =>
    simp only [cc0__pool_kernel_eq_skeleton]; unfold cc0__pool_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- MIDDLE step: the accumulator starts at what the step before left (`xs0`); the output buffer is handed back as found. -/
noncomputable def runMid (c : Dev nD) (i : grid0.Coords) (arg2 : Memref sig .tc .vmem S16x256x1024 .f32) (harg2 : arg2.IsWhole) (arg3 : Memref sig .tc .vmem S16x256 .f32) (harg3 : arg3.IsWhole) (arg4 : Memref sig .tc .vmem S16x256 .f32) (harg4 : arg4.IsWhole) (hF : ¬isFirst i) (hL : ¬isLast i)
    (x0 : Vec F S16x256x1024 .f32) (xs0 : Vec F S16x256 .f32) :
    Σ' (L1 : List (View.Piece (Elt F) S16x256 .f32)), { LS0 : List (View.Piece (Elt F) S16x256 .f32) //
      ∀ (xi1 : Vec F S16x256 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__pool_kernel i arg2 harg2 arg3 harg3 arg4 harg4) K } := by
  refine ⟨[], ?_, fun xi1 E K => ?run⟩
  case run =>
    simp only [cc0__pool_kernel_eq_skeleton]; unfold cc0__pool_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- LAST step: the accumulator starts at what the step before left; the output buffer, at anything, ends with the
    scaled accumulator stored over it. -/
noncomputable def runLast (c : Dev nD) (i : grid0.Coords) (arg2 : Memref sig .tc .vmem S16x256x1024 .f32) (harg2 : arg2.IsWhole) (arg3 : Memref sig .tc .vmem S16x256 .f32) (harg3 : arg3.IsWhole) (arg4 : Memref sig .tc .vmem S16x256 .f32) (harg4 : arg4.IsWhole) (hF : ¬isFirst i) (hL : isLast i)
    (x0 : Vec F S16x256x1024 .f32) (xs0 : Vec F S16x256 .f32) :
    Σ' (L1 : List (View.Piece (Elt F) S16x256 .f32)), { LS0 : List (View.Piece (Elt F) S16x256 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__pool_kernel i arg2 harg2 arg3 harg3 arg4 harg4) K } := by
  refine ⟨?_, ?_, fun E K => ?run⟩
  case run =>
    simp only [cc0__pool_kernel_eq_skeleton]; unfold cc0__pool_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hF | exact hL)
    sl_step
    iapply Hk
    isplitl [H0]
    · iexists _; isplitr; · ipureintro; exact harg2.read_unread _
      iexact H0
    isplitl [H1]; · iexists _; iexact H1
    iexists _; iexact HS0

end Cert.Kernel.Hand

end
-- ==== Proof.Kernel.Pool.lean ====
/-
  Region 0 at a parameter `V`: what the output buffer and the accumulator hold after each point, the proof data, and the
  body obligation. The accumulator is carried from one point to the next: the region's invariant before point `n + 1`
  holds it at what point `n` left.
-/
import proofs.«131701_j49709951484604_1_alg».proof.Proof.Gen.Kernel.Launch
import proofs.«131701_j49709951484604_1_alg».proof.Proof.Gen.Kernel.Skeleton
import proofs.«131701_j49709951484604_1_alg».proof.Proof.Gen.Kernel.Points
import proofs.«131701_j49709951484604_1_alg».proof.Proof.Kernel.PoolRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- FIRST step: its two stores into the accumulator (the reset, then the sum) tile it. -/
theorem accCover_first (c : Dev nD) (i : grid0.Coords) (arg2 : Memref sig .tc .vmem S16x256x1024 .f32) (harg2 : arg2.IsWhole) (arg3 : Memref sig .tc .vmem S16x256 .f32) (harg3 : arg3.IsWhole) (arg4 : Memref sig .tc .vmem S16x256 .f32) (harg4 : arg4.IsWhole) (hF : isFirst i) (hL : ¬isLast i)
    (x0 : Vec F S16x256x1024 .f32) (y : S16x256.Idx) :
    ∃ pc ∈ (runFirst c i arg2 harg2 arg3 harg3 arg4 harg4 hF hL x0).2.1, y ∈ pc.1.set :=
  View.cover_of_tiledL (runFirst c i arg2 harg2 arg3 harg3 arg4 harg4 hF hL x0).2.1 S16x256.size (by sl_kernel_rfl) y

/-- What the FIRST step leaves in the accumulator. -/
def accFirst (c : Dev nD) (i : grid0.Coords) (arg2 : Memref sig .tc .vmem S16x256x1024 .f32) (harg2 : arg2.IsWhole) (arg3 : Memref sig .tc .vmem S16x256 .f32) (harg3 : arg3.IsWhole) (arg4 : Memref sig .tc .vmem S16x256 .f32) (harg4 : arg4.IsWhole) (hF : isFirst i) (hL : ¬isLast i)
    (x0 : Vec F S16x256x1024 .f32) : Vec F S16x256 .f32 :=
  accV.read (Elt F) (accV.writes (Elt F) accV.junk (runFirst c i arg2 harg2 arg3 harg3 arg4 harg4 hF hL x0).2.1)

/-- MIDDLE step: its one store into the accumulator tiles it. -/
theorem accCover_mid (c : Dev nD) (i : grid0.Coords) (arg2 : Memref sig .tc .vmem S16x256x1024 .f32) (harg2 : arg2.IsWhole) (arg3 : Memref sig .tc .vmem S16x256 .f32) (harg3 : arg3.IsWhole) (arg4 : Memref sig .tc .vmem S16x256 .f32) (harg4 : arg4.IsWhole) (hF : ¬isFirst i) (hL : ¬isLast i)
    (x0 : Vec F S16x256x1024 .f32) (xs0 : Vec F S16x256 .f32) (y : S16x256.Idx) :
    ∃ pc ∈ (runMid c i arg2 harg2 arg3 harg3 arg4 harg4 hF hL x0 xs0).2.1, y ∈ pc.1.set :=
  View.cover_of_tiledL (runMid c i arg2 harg2 arg3 harg3 arg4 harg4 hF hL x0 xs0).2.1 S16x256.size (by sl_kernel_rfl) y

/-- What a MIDDLE step leaves in the accumulator. -/
def accMid (c : Dev nD) (i : grid0.Coords) (arg2 : Memref sig .tc .vmem S16x256x1024 .f32) (harg2 : arg2.IsWhole) (arg3 : Memref sig .tc .vmem S16x256 .f32) (harg3 : arg3.IsWhole) (arg4 : Memref sig .tc .vmem S16x256 .f32) (harg4 : arg4.IsWhole) (hF : ¬isFirst i) (hL : ¬isLast i)
    (x0 : Vec F S16x256x1024 .f32) (xs0 : Vec F S16x256 .f32) : Vec F S16x256 .f32 :=
  accV.read (Elt F) (accV.writes (Elt F) accV.junk (runMid c i arg2 harg2 arg3 harg3 arg4 harg4 hF hL x0 xs0).2.1)

/-- LAST step: its store into the accumulator tiles it, -/
theorem accCover_last (c : Dev nD) (i : grid0.Coords) (arg2 : Memref sig .tc .vmem S16x256x1024 .f32) (harg2 : arg2.IsWhole) (arg3 : Memref sig .tc .vmem S16x256 .f32) (harg3 : arg3.IsWhole) (arg4 : Memref sig .tc .vmem S16x256 .f32) (harg4 : arg4.IsWhole) (hF : ¬isFirst i) (hL : isLast i)
    (x0 : Vec F S16x256x1024 .f32) (xs0 : Vec F S16x256 .f32) (y : S16x256.Idx) :
    ∃ pc ∈ (runLast c i arg2 harg2 arg3 harg3 arg4 harg4 hF hL x0 xs0).2.1, y ∈ pc.1.set :=
  View.cover_of_tiledL (runLast c i arg2 harg2 arg3 harg3 arg4 harg4 hF hL x0 xs0).2.1 S16x256.size (by sl_kernel_rfl) y

/-- and so does its store into the output buffer. -/
theorem outCover_last (c : Dev nD) (i : grid0.Coords) (arg2 : Memref sig .tc .vmem S16x256x1024 .f32) (harg2 : arg2.IsWhole) (arg3 : Memref sig .tc .vmem S16x256 .f32) (harg3 : arg3.IsWhole) (arg4 : Memref sig .tc .vmem S16x256 .f32) (harg4 : arg4.IsWhole) (hF : ¬isFirst i) (hL : isLast i)
    (x0 : Vec F S16x256x1024 .f32) (xs0 : Vec F S16x256 .f32) (y : S16x256.Idx) :
    ∃ pc ∈ (runLast c i arg2 harg2 arg3 harg3 arg4 harg4 hF hL x0 xs0).1, y ∈ pc.1.set :=
  View.cover_of_tiledL (runLast c i arg2 harg2 arg3 harg3 arg4 harg4 hF hL x0 xs0).1 S16x256.size (by sl_kernel_rfl) y

/-- What the LAST step leaves in the accumulator, -/
def accLast (c : Dev nD) (i : grid0.Coords) (arg2 : Memref sig .tc .vmem S16x256x1024 .f32) (harg2 : arg2.IsWhole) (arg3 : Memref sig .tc .vmem S16x256 .f32) (harg3 : arg3.IsWhole) (arg4 : Memref sig .tc .vmem S16x256 .f32) (harg4 : arg4.IsWhole) (hF : ¬isFirst i) (hL : isLast i)
    (x0 : Vec F S16x256x1024 .f32) (xs0 : Vec F S16x256 .f32) : Vec F S16x256 .f32 :=
  accV.read (Elt F) (accV.writes (Elt F) accV.junk (runLast c i arg2 harg2 arg3 harg3 arg4 harg4 hF hL x0 xs0).2.1)

/-- and in the output buffer. -/
def outLast (c : Dev nD) (i : grid0.Coords) (arg2 : Memref sig .tc .vmem S16x256x1024 .f32) (harg2 : arg2.IsWhole) (arg3 : Memref sig .tc .vmem S16x256 .f32) (harg3 : arg3.IsWhole) (arg4 : Memref sig .tc .vmem S16x256 .f32) (harg4 : arg4.IsWhole) (hF : ¬isFirst i) (hL : isLast i)
    (x0 : Vec F S16x256x1024 .f32) (xs0 : Vec F S16x256 .f32) : Vec F S16x256 .f32 :=
  outV.read (Elt F) (outV.writes (Elt F) outV.junk (runLast c i arg2 harg2 arg3 harg3 arg4 harg4 hF hL x0 xs0).1)

/-! ## The accumulation over the points -/

/-- What the output's staging buffer (first component; meaningful only at a LAST step, elsewhere a placeholder nothing
    consults: the window is idle there) and the accumulator (second component) hold after the body at position `n`. -/
def outsAt0 (c : Dev nD) : (n : ℕ) → n < cfg0.N → Vec F S16x256 .f32 × Vec F S16x256 .f32
  | 0, hn =>
    (accFirst c (grid0.coords ⟨0, hn⟩) (inM ⟨0, hn⟩) (inM_whole ⟨0, hn⟩) (outM ⟨0, hn⟩) (outM_whole ⟨0, hn⟩) accM (Memref.isWhole_whole _)
        ((isFirst_iff ⟨0, hn⟩).mpr (Nat.zero_mod _)) (fun h => (fun h => by (try dsimp only at h); omega) ((isLast_iff ⟨0, hn⟩).mp h)) (iblk0 V c 0 ⟨0, hn⟩),
      accFirst c (grid0.coords ⟨0, hn⟩) (inM ⟨0, hn⟩) (inM_whole ⟨0, hn⟩) (outM ⟨0, hn⟩) (outM_whole ⟨0, hn⟩) accM (Memref.isWhole_whole _)
        ((isFirst_iff ⟨0, hn⟩).mpr (Nat.zero_mod _)) (fun h => (fun h => by (try dsimp only at h); omega) ((isLast_iff ⟨0, hn⟩).mp h)) (iblk0 V c 0 ⟨0, hn⟩))
  | n + 1, hn =>
    if h0 : (n + 1) % 4 = 0 then
      if h1 : (n + 1) % 4 = 3 then
        False.elim (by omega)
      else
        (accFirst c (grid0.coords ⟨n + 1, hn⟩) (inM ⟨n + 1, hn⟩) (inM_whole ⟨n + 1, hn⟩) (outM ⟨n + 1, hn⟩) (outM_whole ⟨n + 1, hn⟩) accM (Memref.isWhole_whole _)
            ((isFirst_iff ⟨n + 1, hn⟩).mpr h0) (fun h => h1 ((isLast_iff ⟨n + 1, hn⟩).mp h)) (iblk0 V c 0 ⟨n + 1, hn⟩),
          accFirst c (grid0.coords ⟨n + 1, hn⟩) (inM ⟨n + 1, hn⟩) (inM_whole ⟨n + 1, hn⟩) (outM ⟨n + 1, hn⟩) (outM_whole ⟨n + 1, hn⟩) accM (Memref.isWhole_whole _)
            ((isFirst_iff ⟨n + 1, hn⟩).mpr h0) (fun h => h1 ((isLast_iff ⟨n + 1, hn⟩).mp h)) (iblk0 V c 0 ⟨n + 1, hn⟩))
    else
      if h1 : (n + 1) % 4 = 3 then
        (outLast c (grid0.coords ⟨n + 1, hn⟩) (inM ⟨n + 1, hn⟩) (inM_whole ⟨n + 1, hn⟩) (outM ⟨n + 1, hn⟩) (outM_whole ⟨n + 1, hn⟩) accM (Memref.isWhole_whole _)
            (fun h => h0 ((isFirst_iff ⟨n + 1, hn⟩).mp h)) ((isLast_iff ⟨n + 1, hn⟩).mpr h1) (iblk0 V c 0 ⟨n + 1, hn⟩) (outsAt0 c n (Nat.lt_of_succ_lt hn)).2,
          accLast c (grid0.coords ⟨n + 1, hn⟩) (inM ⟨n + 1, hn⟩) (inM_whole ⟨n + 1, hn⟩) (outM ⟨n + 1, hn⟩) (outM_whole ⟨n + 1, hn⟩) accM (Memref.isWhole_whole _)
            (fun h => h0 ((isFirst_iff ⟨n + 1, hn⟩).mp h)) ((isLast_iff ⟨n + 1, hn⟩).mpr h1) (iblk0 V c 0 ⟨n + 1, hn⟩) (outsAt0 c n (Nat.lt_of_succ_lt hn)).2)
      else
        (accMid c (grid0.coords ⟨n + 1, hn⟩) (inM ⟨n + 1, hn⟩) (inM_whole ⟨n + 1, hn⟩) (outM ⟨n + 1, hn⟩) (outM_whole ⟨n + 1, hn⟩) accM (Memref.isWhole_whole _)
            (fun h => h0 ((isFirst_iff ⟨n + 1, hn⟩).mp h)) (fun h => h1 ((isLast_iff ⟨n + 1, hn⟩).mp h)) (iblk0 V c 0 ⟨n + 1, hn⟩) (outsAt0 c n (Nat.lt_of_succ_lt hn)).2,
          accMid c (grid0.coords ⟨n + 1, hn⟩) (inM ⟨n + 1, hn⟩) (inM_whole ⟨n + 1, hn⟩) (outM ⟨n + 1, hn⟩) (outM_whole ⟨n + 1, hn⟩) accM (Memref.isWhole_whole _)
            (fun h => h0 ((isFirst_iff ⟨n + 1, hn⟩).mp h)) (fun h => h1 ((isLast_iff ⟨n + 1, hn⟩).mp h)) (iblk0 V c 0 ⟨n + 1, hn⟩) (outsAt0 c n (Nat.lt_of_succ_lt hn)).2)

/-- At a FIRST step. -/
theorem outsAt0_first (c : Dev nD) (t : Fin cfg0.N) (h0 : t.val % 4 = 0) (h1 : ¬t.val % 4 = 3) :
    outsAt0 V c t.val t.isLt = (accFirst c (grid0.coords t) (inM t) (inM_whole t) (outM t) (outM_whole t) accM (Memref.isWhole_whole _)
        ((isFirst_iff t).mpr h0) (fun h => h1 ((isLast_iff t).mp h)) (iblk0 V c 0 t),
      accFirst c (grid0.coords t) (inM t) (inM_whole t) (outM t) (outM_whole t) accM (Memref.isWhole_whole _)
        ((isFirst_iff t).mpr h0) (fun h => h1 ((isLast_iff t).mp h)) (iblk0 V c 0 t)) := by
  obtain ⟨n, hn⟩ := t
  cases n with
  | zero => exact rfl
  | succ n => exact (dif_pos h0).trans ((dif_neg h1).trans rfl)

/-- At a MIDDLE step: over what the point before left. -/
theorem outsAt0_mid (c : Dev nD) (t : Fin cfg0.N) (h0 : ¬t.val % 4 = 0) (h1 : ¬t.val % 4 = 3) :
    outsAt0 V c t.val t.isLt = (accMid c (grid0.coords t) (inM t) (inM_whole t) (outM t) (outM_whole t) accM (Memref.isWhole_whole _)
        (fun h => h0 ((isFirst_iff t).mp h)) (fun h => h1 ((isLast_iff t).mp h)) (iblk0 V c 0 t)
        (outsAt0 V c (t.val - 1) (Nat.lt_of_le_of_lt (Nat.sub_le _ _) t.isLt)).2,
      accMid c (grid0.coords t) (inM t) (inM_whole t) (outM t) (outM_whole t) accM (Memref.isWhole_whole _)
        (fun h => h0 ((isFirst_iff t).mp h)) (fun h => h1 ((isLast_iff t).mp h)) (iblk0 V c 0 t)
        (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a LAST step: over what the point before left. -/
theorem outsAt0_last (c : Dev nD) (t : Fin cfg0.N) (h0 : ¬t.val % 4 = 0) (h1 : t.val % 4 = 3) :
    outsAt0 V c t.val t.isLt = (outLast c (grid0.coords t) (inM t) (inM_whole t) (outM t) (outM_whole t) accM (Memref.isWhole_whole _)
        (fun h => h0 ((isFirst_iff t).mp h)) ((isLast_iff t).mpr h1) (iblk0 V c 0 t) (outsAt0 V c (t.val - 1) (Nat.lt_of_le_of_lt (Nat.sub_le _ _) t.isLt)).2,
      accLast c (grid0.coords t) (inM t) (inM_whole t) (outM t) (outM_whole t) accM (Memref.isWhole_whole _)
        (fun h => h0 ((isFirst_iff t).mp h)) ((isLast_iff t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried between points -/

/-- The core's scoped buffers that are neither this region's staging buffers nor its accumulator (the other region's
    staging buffers), each whole at some contents: the body never touches them. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

theorem PhiA0_split (c : Dev nD) :
    (Pipeline.ΦA spec0 c : sProp 𝕄) = iprop(iprop((∃ d, owns (c : Thread nD τ) accM fullShare d) ∗ otherScoped c) ∗ (∃ r, prngReg c r)) :=
  PhiA0_eq c

/-- Before the first point the class invariant (the accumulator at anything); before point `n + 1` the accumulator at
    what point `n` left. -/
def PhiS (c : Dev nD) : (n : ℕ) → n ≤ cfg0.N → sProp 𝕄
  | 0, _ => Pipeline.ΦA spec0 c
  | n + 1, hn => iprop(iprop(owns (c : Thread nD τ) accM fullShare ((outsAt0 V c n hn).2) ∗ otherScoped c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) accM fullShare ((outsAt0 V c n hn).2) ∗ otherScoped c) ∗ (∃ r, prngReg c r)) := rfl

theorem PhiS_pos (c : Dev nD) (n : ℕ) (h : n ≤ cfg0.N) (hz : n ≠ 0) :
    PhiS V c n h = iprop(iprop(owns (c : Thread nD τ) accM fullShare ((outsAt0 V c (n - 1) (by omega)).2) ∗ otherScoped c) ∗ (∃ r, prngReg c r)) := by
  cases n with
  | zero => exact absurd rfl hz
  | succ n => rfl

/-! ## The proof data -/

/-- The arrays as the region finds them; after the body at point `t` the input's buffer at its block and the output's at
    `outsAt0`'s first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (inM t) fullShare ((dat0 V c).before 0 t d))
    ∗ (∃ d, owns (c : Thread nD τ) (outM t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the input's memref holds its block; the point's position along the reduced axis selects the
    case; the invariant hands the body the accumulator (at anything at the very first point, else at what the point
    before left) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 8 := lt_of_lt_of_eq t.isLt (show cfg0.N = 8 from N_0)
  rw [show (dat0 V c).leavesExact 0 t = owns (c : Thread nD τ) (inM t) fullShare ((dat0 V c).after 0 t) from by
    unfold Dat.leavesExact; rw [live0_in t], after0_0]
  by_cases h1 : t.val % 4 = 3
  · -- LAST
    have h0 : ¬t.val % 4 = 0 := by omega
    rw [show (dat0 V c).leavesExact 1 t = owns (c : Thread nD τ) (outM t) fullShare ((dat0 V c).after 1 t) from by
      unfold Dat.leavesExact; rw [live0_out t ((isLast_iff t).mpr h1)], after0_1]
    rw [outsAt0_last V c t h0 h1]
    unfold outLast accLast; (try dsimp only)
    have hz : t.val ≠ 0 := by omega
    rw [PhiS_castSucc V c t, PhiS_pos V c _ _ hz]
    iintro ⟨⟨⟨HS0, Hrest⟩, Hg⟩, Ho, ⟨%d0, H0⟩, ⟨%d1, H1⟩⟩
    iapply ((runLast c (grid0.coords t) _ _ _ _ _ _ (fun h => h0 ((isFirst_iff t).mp h)) ((isLast_iff t).mpr h1) (iblk0 V c 0 t) _).2.2 Set.univ _)
    isplitl [H0]; · iexact H0
    isplitl [H1]; · iexists _; iexact H1
    isplitl [HS0]; · iexact HS0
    iintro ⟨H0, ⟨%e1, H1⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (accCover_last c _ _ _ _ _ _ _ _ _ _ _)
        iexact Hrest
      iexact Hg
    isplitl [Ho]; · iexact Ho
    isplitl [H0]; · iexact H0
    unfold owns; iexists _; isplitr
    swap; · iexact H1
    ipureintro; exact View.read_writes_of_cover _ _ _ _ _ (outCover_last c _ _ _ _ _ _ _ _ _ _ _)
  · rw [Dat.leavesExact_idle (dat0 V c) 1 t (idle0_out t (fun h => h1 ((isLast_iff t).mp h))) (noFlush0_out t (fun h => h1 ((isLast_iff t).mp h)))]
    by_cases h0 : t.val % 4 = 0
    · -- FIRST
      rw [outsAt0_first V c t h0 h1]
      unfold accFirst; (try dsimp only)
      by_cases hz : t.val = 0
      · rw [PhiS_castSucc V c t, PhiS_zero V c _ _ hz, PhiA0_split]
        iintro ⟨⟨⟨HS0, Hrest⟩, Hg⟩, Ho, ⟨%d0, H0⟩, ⟨%d1, H1⟩⟩
        iapply ((runFirst c (grid0.coords t) _ _ _ _ _ _ ((isFirst_iff t).mpr h0) (fun h => h1 ((isLast_iff t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (accCover_first c _ _ _ _ _ _ _ _ _ _)
            iexact Hrest
          iexact Hg
        isplitl [Ho]; · iexact Ho
        isplitl [H0]; · iexact H0
        iexists _; iexact H1
      · rw [PhiS_castSucc V c t, PhiS_pos V c _ _ hz]
        iintro ⟨⟨⟨HS0, Hrest⟩, Hg⟩, Ho, ⟨%d0, H0⟩, ⟨%d1, H1⟩⟩
        iapply ((runFirst c (grid0.coords t) _ _ _ _ _ _ ((isFirst_iff t).mpr h0) (fun h => h1 ((isLast_iff t).mp h)) (iblk0 V c 0 t)).2.2 _ Set.univ _)
        isplitl [H0]; · iexact H0
        isplitl [H1]; · iexact H1
        isplitl [HS0]; · iexists _; iexact HS0
        iintro ⟨H0, H1, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (accCover_first c _ _ _ _ _ _ _ _ _ _)
            iexact Hrest
          iexact Hg
        isplitl [Ho]; · iexact Ho
        isplitl [H0]; · iexact H0
        iexists _; iexact H1
    · -- MIDDLE
      rw [outsAt0_mid V c t h0 h1]
      unfold accMid; (try dsimp only)
      have hz : t.val ≠ 0 := by omega
      rw [PhiS_castSucc V c t, PhiS_pos V c _ _ hz]
      iintro ⟨⟨⟨HS0, Hrest⟩, Hg⟩, Ho, ⟨%d0, H0⟩, ⟨%d1, H1⟩⟩
      iapply ((runMid c (grid0.coords t) _ _ _ _ _ _ (fun h => h0 ((isFirst_iff t).mp h)) (fun h => h1 ((isLast_iff t).mp h)) (iblk0 V c 0 t) _).2.2 _ Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (accCover_mid c _ _ _ _ _ _ _ _ _ _ _)
          iexact Hrest
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 8 := N_0; omega
  rw [show (dat0 V c).Φ (Fin.last cfg0.N) = PhiS V c (Fin.last cfg0.N).val (Nat.le_of_lt_succ (Fin.last cfg0.N).isLt) from rfl, PhiS_pos V c _ _ ht, PhiA0_split]
  iintro ⟨⟨HS0, Hrest⟩, Hg⟩
  isplitl [HS0 Hrest]
  · isplitl [HS0]
    · iexists _; iexact HS0
    iexact Hrest
  iexact Hg

end Cert.Kernel.Hand

end
-- ==== Proof.Kernel.Scale.lean ====
import proofs.«131701_j49709951484604_1_alg».proof.Proof.Gen.Kernel.Launch
import proofs.«131701_j49709951484604_1_alg».proof.Proof.Gen.Kernel.Skeleton
import proofs.«131701_j49709951484604_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks at a point

The scaling region runs over a 4 × 8 grid; point `t` is `(t / 8, t % 8)`. Window 0 is the input's block
`[8, 256, 512]` at `(t / 8, 0, t % 8)`, window 1 the gate's block `[8, 256]` at `(t / 8, 0)`, window 2 the
result's block `[8, 256, 512]` at `(t / 8, 0, t % 8)`. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input's staging buffer holds its block at every point, for any proof data whose array is `V`'s and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The gate's staging buffer holds its block at every point, fetched there or not: the gate's block index is
    `t / 8`, so where it is not fetched (`t % 8 ≠ 0`) the index has not moved and the buffer still holds the
    previous point's block, which is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_x : Rect S8x256x512 := Rect.unit (s := S8x256x512) ![0, 0, 0] S8x256x512.size inb_S8x256x512_S8x256x512_0_0_0
abbrev r1_g : Rect S8x256 := Rect.unit (s := S8x256) ![0, 0] S8x256.size inb_S8x256_S8x256_0_0

/-! ## What the body leaves in the result's buffer -/

/-- The result's staging buffer after the body, from the input block `x0` and the gate block `x1`: its one
    store, over the whole buffer, of the input times the gate broadcast along the last axis. -/
def out1_2 (x0 : Vec F S8x256x512 .f32) (x1 : Vec F S8x256 .f32) : Vec F S8x256x512 .f32 :=
  View.canon [⟨r1_x, k1_pay1 (View.ld x1 r1_g) (View.ld x0 r1_x)⟩]

/-- The one store is over the whole buffer, so it covers it. -/
theorem cover1_2 (p0 : Vec F S8x256x512 .f32) (y : S8x256x512.Idx) :
    ∃ pc ∈ ([⟨r1_x, p0⟩] : List (View.Piece (Elt F) S8x256x512 .f32)), y ∈ pc.1.set :=
  View.cover_of_tiled [⟨r1_x, p0⟩] S8x256x512.size (by rfl) y

/-! ## The body's triple -/

set_option maxHeartbeats 1000000 in
/-- The body on whole staging memrefs, the input's at `x0`, the gate's at `x1` and the result's at anything,
    runs to the continuation holding the two inputs' as they were and the result's at `out1_2 x0 x1`. -/
theorem sound_kernel1 (c : Dev nD) (E : Set ℕ) (i : grid1.Coords)
    (arg2 : Memref sig .tc .vmem S8x256x512 .f32) (harg2 : arg2.IsWhole)
    (arg3 : Memref sig .tc .vmem S8x256 .f32) (harg3 : arg3.IsWhole)
    (arg4 : Memref sig .tc .vmem S8x256x512 .f32) (harg4 : arg4.IsWhole)
    (x0 : Vec F S8x256x512 .f32) (x1 : Vec F S8x256 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__scale_kernel i arg2 harg2 arg3 harg3 arg4 harg4) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the scaling pipeline on core `c`: the arrays as the region finds them; after the body at
    point `t` each input's buffer at its block and the result's at `out1_2` of the two input blocks; the
    invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Run.lean ====
/-
  The run of @main: host lines, the pooling region, the host lines that make the gate, the scaling region, the last
  re-laying. The buffer contents at each boundary are a fold from the launch memory; each region's proof data is taken at
  its entry contents; every weakly fair execution terminates with every unscoped buffer at the last boundary's contents.
-/
import proofs.«131701_j49709951484604_1_alg».proof.Proof.Gen.Kernel.Launch
import proofs.«131701_j49709951484604_1_alg».proof.Proof.Gen.Kernel.Skeleton
import proofs.«131701_j49709951484604_1_alg».proof.Proof.Gen.Kernel.Points
import proofs.«131701_j49709951484604_1_alg».proof.Proof.Gen.Kernel.Regions
import proofs.«131701_j49709951484604_1_alg».proof.Proof.Kernel.Pool
import proofs.«131701_j49709951484604_1_alg».proof.Proof.Kernel.Scale
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host line (the pooling region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the inputs as entered, the pooled means at its write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host lines up to the bias add, -/
abbrev W3 : Dev nD → Valuation τ sig (Elt F) := fun c => StableHlo.after hostOps1 (W2 m ρ c)
/-- the rectifier, -/
abbrev W4 : Dev nD → Valuation τ sig (Elt F) := fun c => StableHlo.after hostOps1_1 (W3 m ρ c)
/-- and the lines that end in the gate (the scaling region's entry). -/
abbrev W5 : Dev nD → Valuation τ sig (Elt F) := fun c => StableHlo.after hostOps1_2 (W4 m ρ c)
abbrev V5 : (c : Dev nD) → (b : Ref sig .tc) → Buf (Elt F) ((c : Thread nD τ).loc b) := fun c b => W5 m ρ c b

/-- At region 1's exit: its arrays at what the pipeline leaves (the inputs as entered, the scaled array at its write-backs
    folded), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After the last re-laying: the end. -/
abbrev W7 : Dev nD → Valuation τ sig (Elt F) := fun c => StableHlo.after hostOps2 (W6 m ρ c)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays are split
    out of the unscoped buffers and put back at the exit contents; the generator register goes into the invariant and
    comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)) ]

theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state holds every unscoped buffer at the last boundary's
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.Kernel.Hand

end
-- ==== Proof.Kernel.Frame.lean ====
/-
  The frame: no host line writes an argument and no region may change one, so each argument's buffer, read off the last
  boundary's contents, walks back through the fold to the launch memory.
-/
import proofs.«131701_j49709951484604_1_alg».proof.Proof.Gen.Kernel.Launch
import proofs.«131701_j49709951484604_1_alg».proof.Proof.Gen.Kernel.Skeleton
import proofs.«131701_j49709951484604_1_alg».proof.Proof.Gen.Kernel.Points
import proofs.«131701_j49709951484604_1_alg».proof.Proof.Kernel.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that no host stretch writes and that is no array of either region ends as launched. -/
theorem W7_arg (c : Dev nD) (r : Ref sig .tc) (h0 : r ∉ hostOps0_W) (h1 : r ∉ hostOps1_W) (h11 : r ∉ hostOps1_1_W)
    (h12 : r ∉ hostOps1_2_W) (h2 : r ∉ hostOps2_W) (hs0 : ∀ w, Pipeline.arrRef spec0 w ≠ r) (hs1 : ∀ w, Pipeline.arrRef spec1 w ≠ r) :
    W7 m ρ c r = m ((c : Thread nD τ).loc r) :=
  (StableHlo.after_of_writes_sub hostOps2 _ hostOps2_writes h2).trans <|
  (W6_of_ne m ρ c r hs1).trans <|
  (StableHlo.after_of_writes_sub hostOps1_2 _ hostOps1_2_writes h12).trans <|
  (StableHlo.after_of_writes_sub hostOps1_1 _ hostOps1_1_writes h11).trans <|
  (StableHlo.after_of_writes_sub hostOps1 _ hostOps1_writes h1).trans <|
  (W2_of_ne m ρ c r hs0).trans <|
  (StableHlo.after_of_writes_sub hostOps0 _ hostOps0_writes h0).trans rfl

/-- THE FRAME, at any `F`: every weakly fair execution of @main terminates, nothing faulting, and the five argument
    arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W7_arg m ρ c main_arg0 (by decide) (by decide) (by decide) (by decide) (by decide) (by decide) (by decide)),
     (h c _ (mem_uc main_arg1 (by decide))).trans (W7_arg m ρ c main_arg1 (by decide) (by decide) (by decide) (by decide) (by decide) (by decide) (by decide)),
     (h c _ (mem_uc main_arg2 (by decide))).trans (W7_arg m ρ c main_arg2 (by decide) (by decide) (by decide) (by decide) (by decide) (by decide) (by decide)),
     (h c _ (mem_uc main_arg3 (by decide))).trans (W7_arg m ρ c main_arg3 (by decide) (by decide) (by decide) (by decide) (by decide) (by decide) (by decide)),
     (h c _ (mem_uc main_arg4 (by decide))).trans (W7_arg m ρ c main_arg4 (by decide) (by decide) (by decide) (by decide) (by decide) (by decide) (by decide))⟩)
    (run_all m ρ)

end Cert.Kernel.Hand

end
-- ==== Proof.KernelIdeal.PoolBase.lean ====
/-
  Region 0 (the pooling kernel, grid 2 × 4) at a parameter `V`, the buffer contents when the region is entered:
  what its runs are stated over. Point `t` is `(t / 4, t % 4)`; the body resets its accumulator where `t % 4 = 0`,
  adds the block's lane sums at every point, and stores the scaled accumulator into the output block where
  `t % 4 = 3` — the only points where the output window is live and written back.
-/
import proofs.«131701_j49709951484604_1_alg».proof.Proof.Gen.KernelIdeal.Launch
import proofs.«131701_j49709951484604_1_alg».proof.Proof.Gen.KernelIdeal.Skeleton
import proofs.«131701_j49709951484604_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input block at a point -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions, decided over the grid -/

/-- "This is the first step along the reduced axis": the reset's condition. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 4 = 0 :=
  (by decide +kernel : ∀ t : Fin grid0.N, isFirst (grid0.coords t) ↔ t.val % 4 = 0)

/-- "This is the last step along the reduced axis": the output store's condition. -/
abbrev isLast (i : grid0.Coords) : Prop := k0_cond2 i = 1#1
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

theorem live0_in : ∀ t : Fin cfg0.N, cfg0.idle 0 (grid0.coords t) = false := by decide +kernel
/-- Off the last step the output window is idle and its block is not written back. -/
theorem idle0_out : ∀ t : Fin cfg0.N, ¬isLast (grid0.coords t) → cfg0.idle 1 (grid0.coords t) = true := by decide +kernel
theorem noFlush0_out : ∀ t : Fin cfg0.N, ¬isLast (grid0.coords t) → (cfg0.win 1).flush t = false := by decide +kernel
/-- At the last step it is live. -/
theorem live0_out : ∀ t : Fin cfg0.N, isLast (grid0.coords t) → cfg0.idle 1 (grid0.coords t) = false := by decide +kernel

/-! ## The memrefs the body is called with -/

abbrev inM (t : Fin cfg0.N) : Memref sig .tc .vmem S16x256x1024 .f32 := win0_0.stage (cfg0.slots t 0)
abbrev inM_whole (t : Fin cfg0.N) : (inM t).IsWhole := hstage0_0 ((cfg0.slots t 0).cast nbuf0_0)
abbrev outM (t : Fin cfg0.N) : Memref sig .tc .vmem S16x256 .f32 := win0_1.stage (cfg0.slots t 1)
abbrev outM_whole (t : Fin cfg0.N) : (outM t).IsWhole := hstage0_1 ((cfg0.slots t 1).cast nbuf0_1)
/-- The accumulator: a whole scoped buffer of the kernel's own. -/
abbrev accM : Memref sig .tc .vmem S16x256 .f32 := Memref.whole cc0_scratch0
/-- Views through which the output's and the accumulator's contents are stated. -/
abbrev outV : View sig .tc .vmem S16x256 .f32 := (Memref.whole cc0_stg1_0 : Memref sig .tc .vmem S16x256 .f32).view
abbrev accV : View sig .tc .vmem S16x256 .f32 := accM.view

/-- The class invariant with the accumulator named: the accumulator at some contents, the other scoped buffers of the
    core, and the generator register at some state. -/
theorem PhiA0_eq (c : Dev nD) :
    (Pipeline.ΦA spec0 c : sProp 𝕄)
      = iprop(iprop((∃ d, owns (c : Thread nD τ) accM fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ r, prngReg c r)) := by
  unfold Pipeline.ΦA; rw [scopedRest0_eq]; simp only [accM, owns_whole]; try rfl

end Cert.KernelIdeal.Hand

end
-- ==== Proof.KernelIdeal.PoolRuns.lean ====
/-
  Region 0's body, run once per control case on whole staging memrefs. The reduced axis has four steps:
  FIRST (reset the accumulator, then add the block's lane sums), MIDDLE (add), LAST (add, then store the scaled
  accumulator into the output block). Each run yields, as lists of pieces (last store first), what the accumulator
  and the output buffer end holding; a buffer the case does not store into is handed back untouched.
-/
import proofs.«131701_j49709951484604_1_alg».proof.Proof.Gen.KernelIdeal.Launch
import proofs.«131701_j49709951484604_1_alg».proof.Proof.Gen.KernelIdeal.Skeleton
import proofs.«131701_j49709951484604_1_alg».proof.Proof.Gen.KernelIdeal.Points
import proofs.«131701_j49709951484604_1_alg».proof.Proof.KernelIdeal.PoolBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- FIRST step: the accumulator starts at anything; the output buffer is handed back as found. -/
noncomputable def runFirst (c : Dev nD) (i : grid0.Coords) (arg2 : Memref sig .tc .vmem S16x256x1024 .f32) (harg2 : arg2.IsWhole) (arg3 : Memref sig .tc .vmem S16x256 .f32) (harg3 : arg3.IsWhole) (arg4 : Memref sig .tc .vmem S16x256 .f32) (harg4 : arg4.IsWhole) (hF : isFirst i) (hL : ¬isLast i)
    (x0 : Vec F S16x256x1024 .f32) :
    Σ' (L1 : List (View.Piece (Elt F) S16x256 .f32)), { LS0 : List (View.Piece (Elt F) S16x256 .f32) //
      ∀ (xi1 : Vec F S16x256 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__pool_kernel i arg2 harg2 arg3 harg3 arg4 harg4) K } := by
  refine ⟨[], ?_, fun xi1 E K => ?run⟩
  case run =>
    simp only [cc0__pool_kernel_eq_skeleton]; unfold cc0__pool_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- MIDDLE step: the accumulator starts at what the step before left (`xs0`); the output buffer is handed back as found. -/
noncomputable def runMid (c : Dev nD) (i : grid0.Coords) (arg2 : Memref sig .tc .vmem S16x256x1024 .f32) (harg2 : arg2.IsWhole) (arg3 : Memref sig .tc .vmem S16x256 .f32) (harg3 : arg3.IsWhole) (arg4 : Memref sig .tc .vmem S16x256 .f32) (harg4 : arg4.IsWhole) (hF : ¬isFirst i) (hL : ¬isLast i)
    (x0 : Vec F S16x256x1024 .f32) (xs0 : Vec F S16x256 .f32) :
    Σ' (L1 : List (View.Piece (Elt F) S16x256 .f32)), { LS0 : List (View.Piece (Elt F) S16x256 .f32) //
      ∀ (xi1 : Vec F S16x256 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__pool_kernel i arg2 harg2 arg3 harg3 arg4 harg4) K } := by
  refine ⟨[], ?_, fun xi1 E K => ?run⟩
  case run =>
    simp only [cc0__pool_kernel_eq_skeleton]; unfold cc0__pool_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- LAST step: the accumulator starts at what the step before left; the output buffer, at anything, ends with the
    scaled accumulator stored over it. -/
noncomputable def runLast (c : Dev nD) (i : grid0.Coords) (arg2 : Memref sig .tc .vmem S16x256x1024 .f32) (harg2 : arg2.IsWhole) (arg3 : Memref sig .tc .vmem S16x256 .f32) (harg3 : arg3.IsWhole) (arg4 : Memref sig .tc .vmem S16x256 .f32) (harg4 : arg4.IsWhole) (hF : ¬isFirst i) (hL : isLast i)
    (x0 : Vec F S16x256x1024 .f32) (xs0 : Vec F S16x256 .f32) :
    Σ' (L1 : List (View.Piece (Elt F) S16x256 .f32)), { LS0 : List (View.Piece (Elt F) S16x256 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__pool_kernel i arg2 harg2 arg3 harg3 arg4 harg4) K } := by
  refine ⟨?_, ?_, fun E K => ?run⟩
  case run =>
    simp only [cc0__pool_kernel_eq_skeleton]; unfold cc0__pool_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hF | exact hL)
    sl_step
    iapply Hk
    isplitl [H0]
    · iexists _; isplitr; · ipureintro; exact harg2.read_unread _
      iexact H0
    isplitl [H1]; · iexists _; iexact H1
    iexists _; iexact HS0

end Cert.KernelIdeal.Hand

end
-- ==== Proof.KernelIdeal.Pool.lean ====
/-
  Region 0 at a parameter `V`: what the output buffer and the accumulator hold after each point, the proof data, and the
  body obligation. The accumulator is carried from one point to the next: the region's invariant before point `n + 1`
  holds it at what point `n` left.
-/
import proofs.«131701_j49709951484604_1_alg».proof.Proof.Gen.KernelIdeal.Launch
import proofs.«131701_j49709951484604_1_alg».proof.Proof.Gen.KernelIdeal.Skeleton
import proofs.«131701_j49709951484604_1_alg».proof.Proof.Gen.KernelIdeal.Points
import proofs.«131701_j49709951484604_1_alg».proof.Proof.KernelIdeal.PoolRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- FIRST step: its two stores into the accumulator (the reset, then the sum) tile it. -/
theorem accCover_first (c : Dev nD) (i : grid0.Coords) (arg2 : Memref sig .tc .vmem S16x256x1024 .f32) (harg2 : arg2.IsWhole) (arg3 : Memref sig .tc .vmem S16x256 .f32) (harg3 : arg3.IsWhole) (arg4 : Memref sig .tc .vmem S16x256 .f32) (harg4 : arg4.IsWhole) (hF : isFirst i) (hL : ¬isLast i)
    (x0 : Vec F S16x256x1024 .f32) (y : S16x256.Idx) :
    ∃ pc ∈ (runFirst c i arg2 harg2 arg3 harg3 arg4 harg4 hF hL x0).2.1, y ∈ pc.1.set :=
  View.cover_of_tiledL (runFirst c i arg2 harg2 arg3 harg3 arg4 harg4 hF hL x0).2.1 S16x256.size (by sl_kernel_rfl) y

/-- What the FIRST step leaves in the accumulator. -/
def accFirst (c : Dev nD) (i : grid0.Coords) (arg2 : Memref sig .tc .vmem S16x256x1024 .f32) (harg2 : arg2.IsWhole) (arg3 : Memref sig .tc .vmem S16x256 .f32) (harg3 : arg3.IsWhole) (arg4 : Memref sig .tc .vmem S16x256 .f32) (harg4 : arg4.IsWhole) (hF : isFirst i) (hL : ¬isLast i)
    (x0 : Vec F S16x256x1024 .f32) : Vec F S16x256 .f32 :=
  accV.read (Elt F) (accV.writes (Elt F) accV.junk (runFirst c i arg2 harg2 arg3 harg3 arg4 harg4 hF hL x0).2.1)

/-- MIDDLE step: its one store into the accumulator tiles it. -/
theorem accCover_mid (c : Dev nD) (i : grid0.Coords) (arg2 : Memref sig .tc .vmem S16x256x1024 .f32) (harg2 : arg2.IsWhole) (arg3 : Memref sig .tc .vmem S16x256 .f32) (harg3 : arg3.IsWhole) (arg4 : Memref sig .tc .vmem S16x256 .f32) (harg4 : arg4.IsWhole) (hF : ¬isFirst i) (hL : ¬isLast i)
    (x0 : Vec F S16x256x1024 .f32) (xs0 : Vec F S16x256 .f32) (y : S16x256.Idx) :
    ∃ pc ∈ (runMid c i arg2 harg2 arg3 harg3 arg4 harg4 hF hL x0 xs0).2.1, y ∈ pc.1.set :=
  View.cover_of_tiledL (runMid c i arg2 harg2 arg3 harg3 arg4 harg4 hF hL x0 xs0).2.1 S16x256.size (by sl_kernel_rfl) y

/-- What a MIDDLE step leaves in the accumulator. -/
def accMid (c : Dev nD) (i : grid0.Coords) (arg2 : Memref sig .tc .vmem S16x256x1024 .f32) (harg2 : arg2.IsWhole) (arg3 : Memref sig .tc .vmem S16x256 .f32) (harg3 : arg3.IsWhole) (arg4 : Memref sig .tc .vmem S16x256 .f32) (harg4 : arg4.IsWhole) (hF : ¬isFirst i) (hL : ¬isLast i)
    (x0 : Vec F S16x256x1024 .f32) (xs0 : Vec F S16x256 .f32) : Vec F S16x256 .f32 :=
  accV.read (Elt F) (accV.writes (Elt F) accV.junk (runMid c i arg2 harg2 arg3 harg3 arg4 harg4 hF hL x0 xs0).2.1)

/-- LAST step: its store into the accumulator tiles it, -/
theorem accCover_last (c : Dev nD) (i : grid0.Coords) (arg2 : Memref sig .tc .vmem S16x256x1024 .f32) (harg2 : arg2.IsWhole) (arg3 : Memref sig .tc .vmem S16x256 .f32) (harg3 : arg3.IsWhole) (arg4 : Memref sig .tc .vmem S16x256 .f32) (harg4 : arg4.IsWhole) (hF : ¬isFirst i) (hL : isLast i)
    (x0 : Vec F S16x256x1024 .f32) (xs0 : Vec F S16x256 .f32) (y : S16x256.Idx) :
    ∃ pc ∈ (runLast c i arg2 harg2 arg3 harg3 arg4 harg4 hF hL x0 xs0).2.1, y ∈ pc.1.set :=
  View.cover_of_tiledL (runLast c i arg2 harg2 arg3 harg3 arg4 harg4 hF hL x0 xs0).2.1 S16x256.size (by sl_kernel_rfl) y

/-- and so does its store into the output buffer. -/
theorem outCover_last (c : Dev nD) (i : grid0.Coords) (arg2 : Memref sig .tc .vmem S16x256x1024 .f32) (harg2 : arg2.IsWhole) (arg3 : Memref sig .tc .vmem S16x256 .f32) (harg3 : arg3.IsWhole) (arg4 : Memref sig .tc .vmem S16x256 .f32) (harg4 : arg4.IsWhole) (hF : ¬isFirst i) (hL : isLast i)
    (x0 : Vec F S16x256x1024 .f32) (xs0 : Vec F S16x256 .f32) (y : S16x256.Idx) :
    ∃ pc ∈ (runLast c i arg2 harg2 arg3 harg3 arg4 harg4 hF hL x0 xs0).1, y ∈ pc.1.set :=
  View.cover_of_tiledL (runLast c i arg2 harg2 arg3 harg3 arg4 harg4 hF hL x0 xs0).1 S16x256.size (by sl_kernel_rfl) y

/-- What the LAST step leaves in the accumulator, -/
def accLast (c : Dev nD) (i : grid0.Coords) (arg2 : Memref sig .tc .vmem S16x256x1024 .f32) (harg2 : arg2.IsWhole) (arg3 : Memref sig .tc .vmem S16x256 .f32) (harg3 : arg3.IsWhole) (arg4 : Memref sig .tc .vmem S16x256 .f32) (harg4 : arg4.IsWhole) (hF : ¬isFirst i) (hL : isLast i)
    (x0 : Vec F S16x256x1024 .f32) (xs0 : Vec F S16x256 .f32) : Vec F S16x256 .f32 :=
  accV.read (Elt F) (accV.writes (Elt F) accV.junk (runLast c i arg2 harg2 arg3 harg3 arg4 harg4 hF hL x0 xs0).2.1)

/-- and in the output buffer. -/
def outLast (c : Dev nD) (i : grid0.Coords) (arg2 : Memref sig .tc .vmem S16x256x1024 .f32) (harg2 : arg2.IsWhole) (arg3 : Memref sig .tc .vmem S16x256 .f32) (harg3 : arg3.IsWhole) (arg4 : Memref sig .tc .vmem S16x256 .f32) (harg4 : arg4.IsWhole) (hF : ¬isFirst i) (hL : isLast i)
    (x0 : Vec F S16x256x1024 .f32) (xs0 : Vec F S16x256 .f32) : Vec F S16x256 .f32 :=
  outV.read (Elt F) (outV.writes (Elt F) outV.junk (runLast c i arg2 harg2 arg3 harg3 arg4 harg4 hF hL x0 xs0).1)

/-! ## The accumulation over the points -/

/-- What the output's staging buffer (first component; meaningful only at a LAST step, elsewhere a placeholder nothing
    consults: the window is idle there) and the accumulator (second component) hold after the body at position `n`. -/
def outsAt0 (c : Dev nD) : (n : ℕ) → n < cfg0.N → Vec F S16x256 .f32 × Vec F S16x256 .f32
  | 0, hn =>
    (accFirst c (grid0.coords ⟨0, hn⟩) (inM ⟨0, hn⟩) (inM_whole ⟨0, hn⟩) (outM ⟨0, hn⟩) (outM_whole ⟨0, hn⟩) accM (Memref.isWhole_whole _)
        ((isFirst_iff ⟨0, hn⟩).mpr (Nat.zero_mod _)) (fun h => (fun h => by (try dsimp only at h); omega) ((isLast_iff ⟨0, hn⟩).mp h)) (iblk0 V c 0 ⟨0, hn⟩),
      accFirst c (grid0.coords ⟨0, hn⟩) (inM ⟨0, hn⟩) (inM_whole ⟨0, hn⟩) (outM ⟨0, hn⟩) (outM_whole ⟨0, hn⟩) accM (Memref.isWhole_whole _)
        ((isFirst_iff ⟨0, hn⟩).mpr (Nat.zero_mod _)) (fun h => (fun h => by (try dsimp only at h); omega) ((isLast_iff ⟨0, hn⟩).mp h)) (iblk0 V c 0 ⟨0, hn⟩))
  | n + 1, hn =>
    if h0 : (n + 1) % 4 = 0 then
      if h1 : (n + 1) % 4 = 3 then
        False.elim (by omega)
      else
        (accFirst c (grid0.coords ⟨n + 1, hn⟩) (inM ⟨n + 1, hn⟩) (inM_whole ⟨n + 1, hn⟩) (outM ⟨n + 1, hn⟩) (outM_whole ⟨n + 1, hn⟩) accM (Memref.isWhole_whole _)
            ((isFirst_iff ⟨n + 1, hn⟩).mpr h0) (fun h => h1 ((isLast_iff ⟨n + 1, hn⟩).mp h)) (iblk0 V c 0 ⟨n + 1, hn⟩),
          accFirst c (grid0.coords ⟨n + 1, hn⟩) (inM ⟨n + 1, hn⟩) (inM_whole ⟨n + 1, hn⟩) (outM ⟨n + 1, hn⟩) (outM_whole ⟨n + 1, hn⟩) accM (Memref.isWhole_whole _)
            ((isFirst_iff ⟨n + 1, hn⟩).mpr h0) (fun h => h1 ((isLast_iff ⟨n + 1, hn⟩).mp h)) (iblk0 V c 0 ⟨n + 1, hn⟩))
    else
      if h1 : (n + 1) % 4 = 3 then
        (outLast c (grid0.coords ⟨n + 1, hn⟩) (inM ⟨n + 1, hn⟩) (inM_whole ⟨n + 1, hn⟩) (outM ⟨n + 1, hn⟩) (outM_whole ⟨n + 1, hn⟩) accM (Memref.isWhole_whole _)
            (fun h => h0 ((isFirst_iff ⟨n + 1, hn⟩).mp h)) ((isLast_iff ⟨n + 1, hn⟩).mpr h1) (iblk0 V c 0 ⟨n + 1, hn⟩) (outsAt0 c n (Nat.lt_of_succ_lt hn)).2,
          accLast c (grid0.coords ⟨n + 1, hn⟩) (inM ⟨n + 1, hn⟩) (inM_whole ⟨n + 1, hn⟩) (outM ⟨n + 1, hn⟩) (outM_whole ⟨n + 1, hn⟩) accM (Memref.isWhole_whole _)
            (fun h => h0 ((isFirst_iff ⟨n + 1, hn⟩).mp h)) ((isLast_iff ⟨n + 1, hn⟩).mpr h1) (iblk0 V c 0 ⟨n + 1, hn⟩) (outsAt0 c n (Nat.lt_of_succ_lt hn)).2)
      else
        (accMid c (grid0.coords ⟨n + 1, hn⟩) (inM ⟨n + 1, hn⟩) (inM_whole ⟨n + 1, hn⟩) (outM ⟨n + 1, hn⟩) (outM_whole ⟨n + 1, hn⟩) accM (Memref.isWhole_whole _)
            (fun h => h0 ((isFirst_iff ⟨n + 1, hn⟩).mp h)) (fun h => h1 ((isLast_iff ⟨n + 1, hn⟩).mp h)) (iblk0 V c 0 ⟨n + 1, hn⟩) (outsAt0 c n (Nat.lt_of_succ_lt hn)).2,
          accMid c (grid0.coords ⟨n + 1, hn⟩) (inM ⟨n + 1, hn⟩) (inM_whole ⟨n + 1, hn⟩) (outM ⟨n + 1, hn⟩) (outM_whole ⟨n + 1, hn⟩) accM (Memref.isWhole_whole _)
            (fun h => h0 ((isFirst_iff ⟨n + 1, hn⟩).mp h)) (fun h => h1 ((isLast_iff ⟨n + 1, hn⟩).mp h)) (iblk0 V c 0 ⟨n + 1, hn⟩) (outsAt0 c n (Nat.lt_of_succ_lt hn)).2)

/-- At a FIRST step. -/
theorem outsAt0_first (c : Dev nD) (t : Fin cfg0.N) (h0 : t.val % 4 = 0) (h1 : ¬t.val % 4 = 3) :
    outsAt0 V c t.val t.isLt = (accFirst c (grid0.coords t) (inM t) (inM_whole t) (outM t) (outM_whole t) accM (Memref.isWhole_whole _)
        ((isFirst_iff t).mpr h0) (fun h => h1 ((isLast_iff t).mp h)) (iblk0 V c 0 t),
      accFirst c (grid0.coords t) (inM t) (inM_whole t) (outM t) (outM_whole t) accM (Memref.isWhole_whole _)
        ((isFirst_iff t).mpr h0) (fun h => h1 ((isLast_iff t).mp h)) (iblk0 V c 0 t)) := by
  obtain ⟨n, hn⟩ := t
  cases n with
  | zero => exact rfl
  | succ n => exact (dif_pos h0).trans ((dif_neg h1).trans rfl)

/-- At a MIDDLE step: over what the point before left. -/
theorem outsAt0_mid (c : Dev nD) (t : Fin cfg0.N) (h0 : ¬t.val % 4 = 0) (h1 : ¬t.val % 4 = 3) :
    outsAt0 V c t.val t.isLt = (accMid c (grid0.coords t) (inM t) (inM_whole t) (outM t) (outM_whole t) accM (Memref.isWhole_whole _)
        (fun h => h0 ((isFirst_iff t).mp h)) (fun h => h1 ((isLast_iff t).mp h)) (iblk0 V c 0 t)
        (outsAt0 V c (t.val - 1) (Nat.lt_of_le_of_lt (Nat.sub_le _ _) t.isLt)).2,
      accMid c (grid0.coords t) (inM t) (inM_whole t) (outM t) (outM_whole t) accM (Memref.isWhole_whole _)
        (fun h => h0 ((isFirst_iff t).mp h)) (fun h => h1 ((isLast_iff t).mp h)) (iblk0 V c 0 t)
        (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a LAST step: over what the point before left. -/
theorem outsAt0_last (c : Dev nD) (t : Fin cfg0.N) (h0 : ¬t.val % 4 = 0) (h1 : t.val % 4 = 3) :
    outsAt0 V c t.val t.isLt = (outLast c (grid0.coords t) (inM t) (inM_whole t) (outM t) (outM_whole t) accM (Memref.isWhole_whole _)
        (fun h => h0 ((isFirst_iff t).mp h)) ((isLast_iff t).mpr h1) (iblk0 V c 0 t) (outsAt0 V c (t.val - 1) (Nat.lt_of_le_of_lt (Nat.sub_le _ _) t.isLt)).2,
      accLast c (grid0.coords t) (inM t) (inM_whole t) (outM t) (outM_whole t) accM (Memref.isWhole_whole _)
        (fun h => h0 ((isFirst_iff t).mp h)) ((isLast_iff t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried between points -/

/-- The core's scoped buffers that are neither this region's staging buffers nor its accumulator (the other region's
    staging buffers), each whole at some contents: the body never touches them. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

theorem PhiA0_split (c : Dev nD) :
    (Pipeline.ΦA spec0 c : sProp 𝕄) = iprop(iprop((∃ d, owns (c : Thread nD τ) accM fullShare d) ∗ otherScoped c) ∗ (∃ r, prngReg c r)) :=
  PhiA0_eq c

/-- Before the first point the class invariant (the accumulator at anything); before point `n + 1` the accumulator at
    what point `n` left. -/
def PhiS (c : Dev nD) : (n : ℕ) → n ≤ cfg0.N → sProp 𝕄
  | 0, _ => Pipeline.ΦA spec0 c
  | n + 1, hn => iprop(iprop(owns (c : Thread nD τ) accM fullShare ((outsAt0 V c n hn).2) ∗ otherScoped c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) accM fullShare ((outsAt0 V c n hn).2) ∗ otherScoped c) ∗ (∃ r, prngReg c r)) := rfl

theorem PhiS_pos (c : Dev nD) (n : ℕ) (h : n ≤ cfg0.N) (hz : n ≠ 0) :
    PhiS V c n h = iprop(iprop(owns (c : Thread nD τ) accM fullShare ((outsAt0 V c (n - 1) (by omega)).2) ∗ otherScoped c) ∗ (∃ r, prngReg c r)) := by
  cases n with
  | zero => exact absurd rfl hz
  | succ n => rfl

/-! ## The proof data -/

/-- The arrays as the region finds them; after the body at point `t` the input's buffer at its block and the output's at
    `outsAt0`'s first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (inM t) fullShare ((dat0 V c).before 0 t d))
    ∗ (∃ d, owns (c : Thread nD τ) (outM t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the input's memref holds its block; the point's position along the reduced axis selects the
    case; the invariant hands the body the accumulator (at anything at the very first point, else at what the point
    before left) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 8 := lt_of_lt_of_eq t.isLt (show cfg0.N = 8 from N_0)
  rw [show (dat0 V c).leavesExact 0 t = owns (c : Thread nD τ) (inM t) fullShare ((dat0 V c).after 0 t) from by
    unfold Dat.leavesExact; rw [live0_in t], after0_0]
  by_cases h1 : t.val % 4 = 3
  · -- LAST
    have h0 : ¬t.val % 4 = 0 := by omega
    rw [show (dat0 V c).leavesExact 1 t = owns (c : Thread nD τ) (outM t) fullShare ((dat0 V c).after 1 t) from by
      unfold Dat.leavesExact; rw [live0_out t ((isLast_iff t).mpr h1)], after0_1]
    rw [outsAt0_last V c t h0 h1]
    unfold outLast accLast; (try dsimp only)
    have hz : t.val ≠ 0 := by omega
    rw [PhiS_castSucc V c t, PhiS_pos V c _ _ hz]
    iintro ⟨⟨⟨HS0, Hrest⟩, Hg⟩, Ho, ⟨%d0, H0⟩, ⟨%d1, H1⟩⟩
    iapply ((runLast c (grid0.coords t) _ _ _ _ _ _ (fun h => h0 ((isFirst_iff t).mp h)) ((isLast_iff t).mpr h1) (iblk0 V c 0 t) _).2.2 Set.univ _)
    isplitl [H0]; · iexact H0
    isplitl [H1]; · iexists _; iexact H1
    isplitl [HS0]; · iexact HS0
    iintro ⟨H0, ⟨%e1, H1⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (accCover_last c _ _ _ _ _ _ _ _ _ _ _)
        iexact Hrest
      iexact Hg
    isplitl [Ho]; · iexact Ho
    isplitl [H0]; · iexact H0
    unfold owns; iexists _; isplitr
    swap; · iexact H1
    ipureintro; exact View.read_writes_of_cover _ _ _ _ _ (outCover_last c _ _ _ _ _ _ _ _ _ _ _)
  · rw [Dat.leavesExact_idle (dat0 V c) 1 t (idle0_out t (fun h => h1 ((isLast_iff t).mp h))) (noFlush0_out t (fun h => h1 ((isLast_iff t).mp h)))]
    by_cases h0 : t.val % 4 = 0
    · -- FIRST
      rw [outsAt0_first V c t h0 h1]
      unfold accFirst; (try dsimp only)
      by_cases hz : t.val = 0
      · rw [PhiS_castSucc V c t, PhiS_zero V c _ _ hz, PhiA0_split]
        iintro ⟨⟨⟨HS0, Hrest⟩, Hg⟩, Ho, ⟨%d0, H0⟩, ⟨%d1, H1⟩⟩
        iapply ((runFirst c (grid0.coords t) _ _ _ _ _ _ ((isFirst_iff t).mpr h0) (fun h => h1 ((isLast_iff t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (accCover_first c _ _ _ _ _ _ _ _ _ _)
            iexact Hrest
          iexact Hg
        isplitl [Ho]; · iexact Ho
        isplitl [H0]; · iexact H0
        iexists _; iexact H1
      · rw [PhiS_castSucc V c t, PhiS_pos V c _ _ hz]
        iintro ⟨⟨⟨HS0, Hrest⟩, Hg⟩, Ho, ⟨%d0, H0⟩, ⟨%d1, H1⟩⟩
        iapply ((runFirst c (grid0.coords t) _ _ _ _ _ _ ((isFirst_iff t).mpr h0) (fun h => h1 ((isLast_iff t).mp h)) (iblk0 V c 0 t)).2.2 _ Set.univ _)
        isplitl [H0]; · iexact H0
        isplitl [H1]; · iexact H1
        isplitl [HS0]; · iexists _; iexact HS0
        iintro ⟨H0, H1, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (accCover_first c _ _ _ _ _ _ _ _ _ _)
            iexact Hrest
          iexact Hg
        isplitl [Ho]; · iexact Ho
        isplitl [H0]; · iexact H0
        iexists _; iexact H1
    · -- MIDDLE
      rw [outsAt0_mid V c t h0 h1]
      unfold accMid; (try dsimp only)
      have hz : t.val ≠ 0 := by omega
      rw [PhiS_castSucc V c t, PhiS_pos V c _ _ hz]
      iintro ⟨⟨⟨HS0, Hrest⟩, Hg⟩, Ho, ⟨%d0, H0⟩, ⟨%d1, H1⟩⟩
      iapply ((runMid c (grid0.coords t) _ _ _ _ _ _ (fun h => h0 ((isFirst_iff t).mp h)) (fun h => h1 ((isLast_iff t).mp h)) (iblk0 V c 0 t) _).2.2 _ Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (accCover_mid c _ _ _ _ _ _ _ _ _ _ _)
          iexact Hrest
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 8 := N_0; omega
  rw [show (dat0 V c).Φ (Fin.last cfg0.N) = PhiS V c (Fin.last cfg0.N).val (Nat.le_of_lt_succ (Fin.last cfg0.N).isLt) from rfl, PhiS_pos V c _ _ ht, PhiA0_split]
  iintro ⟨⟨HS0, Hrest⟩, Hg⟩
  isplitl [HS0 Hrest]
  · isplitl [HS0]
    · iexists _; iexact HS0
    iexact Hrest
  iexact Hg

end Cert.KernelIdeal.Hand

end
-- ==== Proof.KernelIdeal.Scale.lean ====
import proofs.«131701_j49709951484604_1_alg».proof.Proof.Gen.KernelIdeal.Launch
import proofs.«131701_j49709951484604_1_alg».proof.Proof.Gen.KernelIdeal.Skeleton
import proofs.«131701_j49709951484604_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks at a point

The scaling region runs over a 4 × 8 grid; point `t` is `(t / 8, t % 8)`. Window 0 is the input's block
`[8, 256, 512]` at `(t / 8, 0, t % 8)`, window 1 the gate's block `[8, 256]` at `(t / 8, 0)`, window 2 the
result's block `[8, 256, 512]` at `(t / 8, 0, t % 8)`. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input's staging buffer holds its block at every point, for any proof data whose array is `V`'s and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The gate's staging buffer holds its block at every point, fetched there or not: the gate's block index is
    `t / 8`, so where it is not fetched (`t % 8 ≠ 0`) the index has not moved and the buffer still holds the
    previous point's block, which is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_x : Rect S8x256x512 := Rect.unit (s := S8x256x512) ![0, 0, 0] S8x256x512.size inb_S8x256x512_S8x256x512_0_0_0
abbrev r1_g : Rect S8x256 := Rect.unit (s := S8x256) ![0, 0] S8x256.size inb_S8x256_S8x256_0_0

/-! ## What the body leaves in the result's buffer -/

/-- The result's staging buffer after the body, from the input block `x0` and the gate block `x1`: its one
    store, over the whole buffer, of the input times the gate broadcast along the last axis. -/
def out1_2 (x0 : Vec F S8x256x512 .f32) (x1 : Vec F S8x256 .f32) : Vec F S8x256x512 .f32 :=
  View.canon [⟨r1_x, k1_pay1 (View.ld x1 r1_g) (View.ld x0 r1_x)⟩]

/-- The one store is over the whole buffer, so it covers it. -/
theorem cover1_2 (p0 : Vec F S8x256x512 .f32) (y : S8x256x512.Idx) :
    ∃ pc ∈ ([⟨r1_x, p0⟩] : List (View.Piece (Elt F) S8x256x512 .f32)), y ∈ pc.1.set :=
  View.cover_of_tiled [⟨r1_x, p0⟩] S8x256x512.size (by rfl) y

/-! ## The body's triple -/

set_option maxHeartbeats 1000000 in
/-- The body on whole staging memrefs, the input's at `x0`, the gate's at `x1` and the result's at anything,
    runs to the continuation holding the two inputs' as they were and the result's at `out1_2 x0 x1`. -/
theorem sound_kernel1 (c : Dev nD) (E : Set ℕ) (i : grid1.Coords)
    (arg2 : Memref sig .tc .vmem S8x256x512 .f32) (harg2 : arg2.IsWhole)
    (arg3 : Memref sig .tc .vmem S8x256 .f32) (harg3 : arg3.IsWhole)
    (arg4 : Memref sig .tc .vmem S8x256x512 .f32) (harg4 : arg4.IsWhole)
    (x0 : Vec F S8x256x512 .f32) (x1 : Vec F S8x256 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out1_2 x0 x1)) -∗ K ⟨⟩))
      ⊢ wp frame (wpE (defs₀ (F := F)) Variants.none c none) E (cc1__scale_kernel i arg2 harg2 arg3 harg3 arg4 harg4) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the scaling pipeline on core `c`: the arrays as the region finds them; after the body at
    point `t` each input's buffer at its block and the result's at `out1_2` of the two input blocks; the
    invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Run.lean ====
/-
  The run of @main: host lines, the pooling region, the host lines that make the gate, the scaling region, the last
  re-laying. The buffer contents at each boundary are a fold from the launch memory; each region's proof data is taken at
  its entry contents; every weakly fair execution terminates with every unscoped buffer at the last boundary's contents.
-/
import proofs.«131701_j49709951484604_1_alg».proof.Proof.Gen.KernelIdeal.Launch
import proofs.«131701_j49709951484604_1_alg».proof.Proof.Gen.KernelIdeal.Skeleton
import proofs.«131701_j49709951484604_1_alg».proof.Proof.Gen.KernelIdeal.Points
import proofs.«131701_j49709951484604_1_alg».proof.Proof.Gen.KernelIdeal.Regions
import proofs.«131701_j49709951484604_1_alg».proof.Proof.KernelIdeal.Pool
import proofs.«131701_j49709951484604_1_alg».proof.Proof.KernelIdeal.Scale
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host line (the pooling region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the inputs as entered, the pooled means at its write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host lines up to the bias add, -/
abbrev W3 : Dev nD → Valuation τ sig (Elt F) := fun c => StableHlo.after hostOps1 (W2 m ρ c)
/-- the rectifier, -/
abbrev W4 : Dev nD → Valuation τ sig (Elt F) := fun c => StableHlo.after hostOps1_1 (W3 m ρ c)
/-- and the lines that end in the gate (the scaling region's entry). -/
abbrev W5 : Dev nD → Valuation τ sig (Elt F) := fun c => StableHlo.after hostOps1_2 (W4 m ρ c)
abbrev V5 : (c : Dev nD) → (b : Ref sig .tc) → Buf (Elt F) ((c : Thread nD τ).loc b) := fun c b => W5 m ρ c b

/-- At region 1's exit: its arrays at what the pipeline leaves (the inputs as entered, the scaled array at its write-backs
    folded), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After the last re-laying: the end. -/
abbrev W7 : Dev nD → Valuation τ sig (Elt F) := fun c => StableHlo.after hostOps2 (W6 m ρ c)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its arrays are split
    out of the unscoped buffers and put back at the exit contents; the generator register goes into the invariant and
    comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)) ]

theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on the
    TensorCores terminates, nothing faulting, and every final state holds every unscoped buffer at the last boundary's
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.KernelIdeal.Hand

end
-- ==== Proof.KernelIdeal.Frame.lean ====
/-
  The frame: no host line writes an argument and no region may change one, so each argument's buffer, read off the last
  boundary's contents, walks back through the fold to the launch memory.
-/
import proofs.«131701_j49709951484604_1_alg».proof.Proof.Gen.KernelIdeal.Launch
import proofs.«131701_j49709951484604_1_alg».proof.Proof.Gen.KernelIdeal.Skeleton
import proofs.«131701_j49709951484604_1_alg».proof.Proof.Gen.KernelIdeal.Points
import proofs.«131701_j49709951484604_1_alg».proof.Proof.KernelIdeal.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that no host stretch writes and that is no array of either region ends as launched. -/
theorem W7_arg (c : Dev nD) (r : Ref sig .tc) (h0 : r ∉ hostOps0_W) (h1 : r ∉ hostOps1_W) (h11 : r ∉ hostOps1_1_W)
    (h12 : r ∉ hostOps1_2_W) (h2 : r ∉ hostOps2_W) (hs0 : ∀ w, Pipeline.arrRef spec0 w ≠ r) (hs1 : ∀ w, Pipeline.arrRef spec1 w ≠ r) :
    W7 m ρ c r = m ((c : Thread nD τ).loc r) :=
  (StableHlo.after_of_writes_sub hostOps2 _ hostOps2_writes h2).trans <|
  (W6_of_ne m ρ c r hs1).trans <|
  (StableHlo.after_of_writes_sub hostOps1_2 _ hostOps1_2_writes h12).trans <|
  (StableHlo.after_of_writes_sub hostOps1_1 _ hostOps1_1_writes h11).trans <|
  (StableHlo.after_of_writes_sub hostOps1 _ hostOps1_writes h1).trans <|
  (W2_of_ne m ρ c r hs0).trans <|
  (StableHlo.after_of_writes_sub hostOps0 _ hostOps0_writes h0).trans rfl

/-- THE FRAME, at any `F`: every weakly fair execution of @main terminates, nothing faulting, and the five argument
    arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W7_arg m ρ c main_arg0 (by decide) (by decide) (by decide) (by decide) (by decide) (by decide) (by decide)),
     (h c _ (mem_uc main_arg1 (by decide))).trans (W7_arg m ρ c main_arg1 (by decide) (by decide) (by decide) (by decide) (by decide) (by decide) (by decide)),
     (h c _ (mem_uc main_arg2 (by decide))).trans (W7_arg m ρ c main_arg2 (by decide) (by decide) (by decide) (by decide) (by decide) (by decide) (by decide)),
     (h c _ (mem_uc main_arg3 (by decide))).trans (W7_arg m ρ c main_arg3 (by decide) (by decide) (by decide) (by decide) (by decide) (by decide) (by decide)),
     (h c _ (mem_uc main_arg4 (by decide))).trans (W7_arg m ρ c main_arg4 (by decide) (by decide) (by decide) (by decide) (by decide) (by decide) (by decide))⟩)
    (run_all m ρ)

end Cert.KernelIdeal.Hand

end
-- ==== Proof.KernelIdeal.PoolValue.lean ====
/-
  What the pooling region leaves in its result array, at the extended reals. A group of four points shares one output
  block: the first resets the accumulator to zero and adds its block's lane sums, the next two add theirs, the last adds
  its own and stores the accumulator times `2⁻¹²`. Point `4 i + j` reads the block of rows `16 i ‥ 16 i + 15` and lanes
  `1024 j ‥ 1024 j + 1023`; so entry `(b, ch)` of the result is the sum of `Z (b, ch, ·)` over the four runs of 1024
  lanes, times `2⁻¹²`.
-/
import proofs.«131701_j49709951484604_1_alg».proof.Proof.Gen.KernelIdeal.Launch
import proofs.«131701_j49709951484604_1_alg».proof.Proof.Gen.KernelIdeal.Skeleton
import proofs.«131701_j49709951484604_1_alg».proof.Proof.Gen.KernelIdeal.Points
import proofs.«131701_j49709951484604_1_alg».proof.Proof.KernelIdeal.Pool
import Idealize.ShloMosaic.Lib.Pipeline.Value
import Idealize.ShloMosaic.Lib.ValueIdx
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case leaves, as the payloads of its stores -/

section AnyF
variable (V : (c : Dev nD) → (b : Ref sig .tc) → Buf (Elt F) ((c : Thread nD τ).loc b))

/-- A MIDDLE step leaves the accumulator it found plus the block's lane sums. -/
theorem accMid_eq (c : Dev nD) (i : grid0.Coords) (arg2 : Memref sig .tc .vmem S16x256x1024 .f32) (harg2 : arg2.IsWhole) (arg3 : Memref sig .tc .vmem S16x256 .f32) (harg3 : arg3.IsWhole) (arg4 : Memref sig .tc .vmem S16x256 .f32) (harg4 : arg4.IsWhole) (hF : ¬isFirst i) (hL : ¬isLast i)
    (x0 : Vec F S16x256x1024 .f32) (xs0 : Vec F S16x256 .f32) :
    accMid c i arg2 harg2 arg3 harg3 arg4 harg4 hF hL x0 xs0 = k0_pay2 xs0 x0 := by
  unfold accMid
  rw [View.read_writes_eq_canon _ _ _ (accCover_mid c i arg2 harg2 arg3 harg3 arg4 harg4 hF hL x0 xs0)]
  unfold runMid
  dsimp only
  sl_unfold_words
  rw [View.canon_unit_zero hz2]
  simp only [View.readAt_eq_ld, harg4.read_unread, harg2.read_unread, View.ld_unit_zero (S := S16x256) hz2, View.ld_unit_zero (S := S16x256x1024) hz3]

/-- So does the LAST step, -/
theorem accLast_eq (c : Dev nD) (i : grid0.Coords) (arg2 : Memref sig .tc .vmem S16x256x1024 .f32) (harg2 : arg2.IsWhole) (arg3 : Memref sig .tc .vmem S16x256 .f32) (harg3 : arg3.IsWhole) (arg4 : Memref sig .tc .vmem S16x256 .f32) (harg4 : arg4.IsWhole) (hF : ¬isFirst i) (hL : isLast i)
    (x0 : Vec F S16x256x1024 .f32) (xs0 : Vec F S16x256 .f32) :
    accLast c i arg2 harg2 arg3 harg3 arg4 harg4 hF hL x0 xs0 = k0_pay2 xs0 x0 := by
  unfold accLast
  rw [View.read_writes_eq_canon _ _ _ (accCover_last c i arg2 harg2 arg3 harg3 arg4 harg4 hF hL x0 xs0)]
  unfold runLast
  dsimp only
  sl_unfold_words
  rw [View.canon_unit_zero hz2]
  simp only [View.readAt_eq_ld, harg4.read_unread, harg2.read_unread, View.ld_unit_zero (S := S16x256) hz2, View.ld_unit_zero (S := S16x256x1024) hz3]

/-- which stores that accumulator, scaled, into the output buffer. -/
theorem outLast_eq (c : Dev nD) (i : grid0.Coords) (arg2 : Memref sig .tc .vmem S16x256x1024 .f32) (harg2 : arg2.IsWhole) (arg3 : Memref sig .tc .vmem S16x256 .f32) (harg3 : arg3.IsWhole) (arg4 : Memref sig .tc .vmem S16x256 .f32) (harg4 : arg4.IsWhole) (hF : ¬isFirst i) (hL : isLast i)
    (x0 : Vec F S16x256x1024 .f32) (xs0 : Vec F S16x256 .f32) :
    outLast c i arg2 harg2 arg3 harg3 arg4 harg4 hF hL x0 xs0 = k0_pay3 (k0_pay2 xs0 x0) := by
  unfold outLast
  rw [View.read_writes_eq_canon _ _ _ (outCover_last c i arg2 harg2 arg3 harg3 arg4 harg4 hF hL x0 xs0)]
  unfold runLast
  dsimp only
  sl_unfold_words
  rw [View.canon_unit_zero hz2, View.readCov_unit_zero (S := S16x256) _ hz2]
  simp only [View.readAt_eq_ld, harg4.read_unread, harg2.read_unread, View.ld_unit_zero (S := S16x256) hz2, View.ld_unit_zero (S := S16x256x1024) hz3]

/-- The FIRST step stores the zero block, reads it back, and leaves zero plus the block's lane sums. -/
theorem accFirst_eq (c : Dev nD) (i : grid0.Coords) (arg2 : Memref sig .tc .vmem S16x256x1024 .f32) (harg2 : arg2.IsWhole) (arg3 : Memref sig .tc .vmem S16x256 .f32) (harg3 : arg3.IsWhole) (arg4 : Memref sig .tc .vmem S16x256 .f32) (harg4 : arg4.IsWhole) (hF : isFirst i) (hL : ¬isLast i)
    (x0 : Vec F S16x256x1024 .f32) :
    accFirst c i arg2 harg2 arg3 harg3 arg4 harg4 hF hL x0 = k0_pay2 (k0_pay1 (F := F)) x0 := by
  unfold accFirst
  rw [View.read_writes_eq_canon _ _ _ (accCover_first c i arg2 harg2 arg3 harg3 arg4 harg4 hF hL x0)]
  unfold runFirst
  dsimp only
  sl_unfold_words
  rw [View.canon_cons_unit_zero (S := S16x256) hz2, View.readCov_unit_zero (S := S16x256) _ hz2]
  simp only [View.readAt_eq_ld, harg2.read_unread, View.ld_unit_zero (S := S16x256) hz2, View.ld_unit_zero (S := S16x256x1024) hz3]

/-! ## The accumulator point by point -/

/-- The input block at position `n`. -/
abbrev xblk (c : Dev nD) (n : ℕ) (h : n < cfg0.N) : Vec F S16x256x1024 .f32 := iblk0 V c 0 ⟨n, h⟩

/-- At the first step of a group the accumulator restarts from zero. -/
theorem acc_first (c : Dev nD) (n : ℕ) (h : n < cfg0.N) (h0 : n % 4 = 0) :
    (outsAt0 V c n h).2 = k0_pay2 (k0_pay1 (F := F)) (xblk V c n h) := by
  have e := outsAt0_first V c ⟨n, h⟩ h0 (by dsimp only; omega)
  dsimp only at e
  rw [e]; dsimp only
  exact accFirst_eq ..

/-- At every other step it adds the block's lane sums to what the point before left. -/
theorem acc_step (c : Dev nD) (n : ℕ) (h : n + 1 < cfg0.N) (h0 : ¬(n + 1) % 4 = 0) :
    (outsAt0 V c (n + 1) h).2 = k0_pay2 (outsAt0 V c n (Nat.lt_of_succ_lt h)).2 (xblk V c (n + 1) h) := by
  by_cases h1 : (n + 1) % 4 = 3
  · have e := outsAt0_last V c ⟨n + 1, h⟩ h0 h1
    dsimp only at e
    rw [e]; dsimp only
    exact accLast_eq ..
  · have e := outsAt0_mid V c ⟨n + 1, h⟩ h0 h1
    dsimp only at e
    rw [e]; dsimp only
    exact accMid_eq ..

/-- At the last step of a group the output buffer gets the accumulator, scaled. -/
theorem out_last (c : Dev nD) (n : ℕ) (h : n < cfg0.N) (h3 : n % 4 = 3) :
    (outsAt0 V c n h).1 = k0_pay3 (outsAt0 V c n h).2 := by
  have h0 : ¬n % 4 = 0 := by omega
  have e := outsAt0_last V c ⟨n, h⟩ h0 h3
  dsimp only at e
  rw [e]; dsimp only
  rw [outLast_eq, accLast_eq]

end AnyF

/-! ## At the extended reals -/

section AtIdeal
variable (V : (c : Dev nD) → (b : Ref sig .tc) → Buf (Elt Ideal) ((c : Thread nD τ).loc b))

/-- Lane `l` inserted on the reduced axis over `(p, q)`. -/
theorem lift_ix (p : Fin 16) (q : Fin 256) (l : Fin 1024) :
    (Facts₀.reduces_S16x256x1024_S16x256 : S16x256x1024.Reduces [2] S16x256).lift (ix2 p q) l = ix3 p q l := by
  funext a; apply Fin.ext
  match a with
  | ⟨0, _⟩ => rfl
  | ⟨1, _⟩ => rfl
  | ⟨2, _⟩ => rfl

/-- The reset stores zero. -/
theorem pay1_apply (p : Fin 16) (q : Fin 256) : (k0_pay1 (F := Ideal)) (ix2 p q) = 0 := by
  unfold k0_pay1
  simp only [shapeCast_self]
  exact Ideal.ofBits_zero_f32

/-- The accumulating store: the accumulator plus the sum of the block's 1024 lanes. -/
theorem pay2_apply (v3 : Vec Ideal S16x256 .f32) (v4 : Vec Ideal S16x256x1024 .f32) (p : Fin 16) (q : Fin 256) :
    k0_pay2 v3 v4 (ix2 p q) = v3 (ix2 p q) + ∑ l : Fin 1024, v4 (ix3 p q l) := by
  unfold k0_pay2
  simp only [shapeCast_self]
  refine congrArg (v3 (ix2 p q) + ·) ?_
  refine (Ideal.multiReduction_add_single v4 0x00000000#32 Facts₀.reduces_S16x256x1024_S16x256 (.inl rfl) rfl (ix2 p q)).trans ?_
  exact Finset.sum_congr rfl fun l _ => congrArg v4 (lift_ix p q l)

/-- The output store: the accumulator times the literal `2⁻¹²`. -/
theorem pay3_apply (v : Vec Ideal S16x256 .f32) (p : Fin 16) (q : Fin 256) :
    k0_pay3 v (ix2 p q) = v (ix2 p q) * Ideal.ofBits .f32 0x39800000#32 := rfl

/-- The lane sum of the block at position `n`, at row `p` and channel `q`. -/
abbrev laneSum (c : Dev nD) (n : ℕ) (h : n < cfg0.N) (p : Fin 16) (q : Fin 256) : EReal :=
  ∑ l : Fin 1024, xblk V c n h (ix3 p q l)

/-- A group's four steps: what its last point stores. -/
theorem group_out (c : Dev nD) (n : ℕ) (h : n + 3 < cfg0.N) (h0 : n % 4 = 0) (p : Fin 16) (q : Fin 256) :
    (outsAt0 V c (n + 3) h).1 (ix2 p q)
      = ((((0 + laneSum V c n (by omega) p q) + laneSum V c (n + 1) (by omega) p q) + laneSum V c (n + 2) (by omega) p q)
          + laneSum V c (n + 3) h p q) * Ideal.ofBits .f32 0x39800000#32 := by
  rw [out_last V c (n + 3) h (by omega), pay3_apply,
    acc_step V c (n + 2) h (by omega), pay2_apply,
    acc_step V c (n + 1) (by omega) (by omega), pay2_apply,
    acc_step V c n (by omega) (by omega), pay2_apply,
    acc_first V c n (by omega) h0, pay2_apply, pay1_apply]

/-- The region's input array, as the re-laid input [32, 256, 4096]. -/
abbrev poolIn (c : Dev nD) : Vec Ideal S32x256x4096 .f32 := V c main_v0

/-- The block index of the two windows at a point: the group `t / 4`, and the step `t % 4` along the lanes. -/
theorem pool_block_index : ∀ t : Fin cfg0.N, win0_0.index t (0 : Fin 3) = t.val / 4 ∧ win0_0.index t (1 : Fin 3) = 0
    ∧ win0_0.index t (2 : Fin 3) = t.val % 4 ∧ win0_1.index t (0 : Fin 2) = t.val / 4 ∧ win0_1.index t (1 : Fin 2) = 0 :=
  (by decide +kernel : ∀ t : Fin grid0.N, _)

/-- The block at point `t` reads rows `16 (t / 4) + p` and lanes `1024 (t % 4) + l` of the array. -/
theorem xblk_apply (c : Dev nD) (n : ℕ) (h : n < cfg0.N) (p : Fin 16) (q : Fin 256) (l : Fin 1024) :
    xblk V c n h (ix3 p q l)
      = poolIn V c (ix3 (⟨16 * (n / 4) + p.val, by have := p.isLt; have : n < 8 := lt_of_lt_of_eq h N_0; omega⟩ : Fin 32) q
          (⟨1024 * (n % 4) + l.val, by have := l.isLt; omega⟩ : Fin 4096)) := by
  obtain ⟨e0, e1, e2, -, -⟩ := pool_block_index ⟨n, h⟩
  show ((cfg0.win 0).blk ⟨n, h⟩).view.read (Elt Ideal) (V c (Pipeline.arrRef spec0 0)) (ix3 p q l) = _
  rw [View.read_apply]
  show V c main_v0 _ = V c main_v0 _
  congr 1
  funext a
  apply Fin.ext
  match a with
  | ⟨0, _⟩ => show win0_0.index ⟨n, h⟩ (0 : Fin 3) * 16 + 1 * p.val = 16 * (n / 4) + p.val; rw [e0]; dsimp only; omega
  | ⟨1, _⟩ => show win0_0.index ⟨n, h⟩ (1 : Fin 3) * 256 + 1 * q.val = q.val; rw [e1]; omega
  | ⟨2, _⟩ => show win0_0.index ⟨n, h⟩ (2 : Fin 3) * 1024 + 1 * l.val = 1024 * (n % 4) + l.val; rw [e2]; dsimp only; omega

/-- Lane `1024 j + l` of the re-laid trailing axis. -/
abbrev lane4 (j : Fin 4) (l : Fin 1024) : Fin 4096 := ⟨1024 * j.val + l.val, by have := j.isLt; have := l.isLt; omega⟩

/-- The pooled means: the sum over the four runs of 1024 lanes, times `2⁻¹²`. -/
abbrev pooled (c : Dev nD) : Vec Ideal S32x256 .f32 :=
  fun i => (∑ j : Fin 4, ∑ l : Fin 1024, poolIn V c (ix3 (i 0) (i 1) (lane4 j l))) * Ideal.ofBits .f32 0x39800000#32

/-- What a group's last point stores is the pooled mean of its rows. -/
theorem group_pooled (c : Dev nD) (n : ℕ) (h : n + 3 < cfg0.N) (h0 : n % 4 = 0) (p : Fin 16) (q : Fin 256) :
    (outsAt0 V c (n + 3) h).1 (ix2 p q)
      = pooled V c (ix2 (⟨16 * (n / 4) + p.val, by have := p.isLt; have : n + 3 < 8 := lt_of_lt_of_eq h N_0; omega⟩ : Fin 32) q) := by
  rw [group_out V c n h h0 p q]
  show _ = (∑ j : Fin 4, ∑ l : Fin 1024, poolIn V c (ix3 _ q (lane4 j l))) * _
  rw [Fin.sum_univ_four, zero_add]
  have hN : n + 3 < 8 := lt_of_lt_of_eq h N_0
  have key : ∀ (k : ℕ) (hk : k < 4) (hh : n + k < cfg0.N), laneSum V c (n + k) hh p q
      = ∑ l : Fin 1024, poolIn V c (ix3 (⟨16 * (n / 4) + p.val, by have := p.isLt; omega⟩ : Fin 32) q (lane4 ⟨k, hk⟩ l)) := by
    intro k hk hh
    refine Finset.sum_congr rfl fun l _ => ?_
    rw [xblk_apply]
    refine congrArg (poolIn V c) ?_
    funext a
    apply Fin.ext
    match a with
    | ⟨0, _⟩ => show 16 * ((n + k) / 4) + p.val = 16 * (n / 4) + p.val; omega
    | ⟨1, _⟩ => rfl
    | ⟨2, _⟩ => show 1024 * ((n + k) % 4) + l.val = 1024 * k + l.val; omega
  rw [show laneSum V c n (by omega) p q = laneSum V c (n + 0) (by omega) p q from rfl,
    key 0 (by omega), key 1 (by omega), key 2 (by omega), key 3 (by omega)]
  rfl

/-- The same at any index of the output block. -/
theorem group_pooled_at (c : Dev nD) (n : ℕ) (h : n + 3 < cfg0.N) (h0 : n % 4 = 0) (y : S16x256.Idx) :
    (outsAt0 V c (n + 3) h).1 y
      = pooled V c (ix2 (⟨16 * (n / 4) + (y 0).val, by have h16 : (y 0).val < 16 := (y 0).isLt; have : n + 3 < 8 := lt_of_lt_of_eq h N_0; omega⟩ : Fin 32) (y 1)) := by
  obtain ⟨p, q, rfl⟩ : ∃ (p : Fin 16) (q : Fin 256), y = ix2 p q := ⟨y 0, y 1, eq_ix2 y⟩
  exact group_pooled V c n h h0 p q

/-- WHAT A FLUSHING POINT WRITES BACK is its block of the pooled means. -/
theorem pool_flushed_eq (c : Dev nD) (t : Fin cfg0.N) (hf : (cfg0.win 1).flush t = true) :
    (dat0 V c).flushed 1 t = ((cfg0.win 1).blk t).view.read (Elt Ideal) (pooled V c) := by
  have h3 : t.val % 4 = 3 := (flush0_1 t).mp hf
  obtain ⟨-, -, -, e0, e1⟩ := pool_block_index t
  show (cfg0.win 1).cut (grid0.coords t) ((dat0 V c).after 1 t) = _
  rw [after0_1]
  funext y
  show (outsAt0 V c t.val t.isLt).1 y = pooled V c (((cfg0.win 1).blk t).view.emb y)
  obtain ⟨tv, ht⟩ := t
  obtain ⟨n, rfl⟩ : ∃ n, tv = n + 3 := ⟨tv - 3, by dsimp only at h3; omega⟩
  dsimp only at h3 e0 e1 ⊢
  refine (group_pooled_at V c n ht (by omega) y).trans ?_
  refine congrArg (pooled V c) ?_
  funext a
  apply Fin.ext
  match a with
  | ⟨0, _⟩ => show 16 * (n / 4) + (y 0).val = win0_1.index ⟨n + 3, ht⟩ (0 : Fin 2) * 16 + 1 * (y 0).val; rw [e0]; omega
  | ⟨1, _⟩ => show (y 1).val = win0_1.index ⟨n + 3, ht⟩ (1 : Fin 2) * 256 + 1 * (y 1).val; rw [e1]; omega

/-- An index of the result is in point `t`'s block iff each coordinate is in the block's range. -/
theorem pool_mem_blk (t : Fin cfg0.N) (i : S32x256.Idx) :
    i ∈ ((cfg0.win 1).blk t).view.set ↔ ∀ a : Fin 2, win0_1.index t a * S16x256.size a ≤ (i a).val ∧ (i a).val < win0_1.index t a * S16x256.size a + S16x256.size a := by
  show i ∈ ((View.whole main_v1).slice (win0_1.rect t)).set ↔ _
  rw [View.set_slice_whole, Rect.mem_set_unit]
  exact Iff.rfl

/-- Every entry of the result is in the block of its group's last point. -/
theorem pool_covered (i : S32x256.Idx) :
    ∃ t : Fin cfg0.N, (cfg0.win 1).flush t = true ∧ i ∈ ((cfg0.win 1).blk t).view.set := by
  have hi0 : (i 0).val < 32 := (i 0).isLt
  have hi1 : (i 1).val < 256 := (i 1).isLt
  refine ⟨⟨4 * ((i 0).val / 16) + 3, by rw [show cfg0.N = 8 from N_0]; omega⟩, (flush0_1 _).mpr (by dsimp only; omega), ?_⟩
  rw [pool_mem_blk]
  obtain ⟨-, -, -, e0, e1⟩ := pool_block_index ⟨4 * ((i 0).val / 16) + 3, by rw [show cfg0.N = 8 from N_0]; omega⟩
  dsimp only at e0 e1
  intro a
  match a with
  | ⟨0, _⟩ => show win0_1.index _ (0 : Fin 2) * 16 ≤ (i 0).val ∧ (i 0).val < win0_1.index _ (0 : Fin 2) * 16 + 16; rw [e0]; omega
  | ⟨1, _⟩ => show win0_1.index _ (1 : Fin 2) * 256 ≤ (i 1).val ∧ (i 1).val < win0_1.index _ (1 : Fin 2) * 256 + 256; rw [e1]; omega

/-- THE RESULT ARRAY after the region: the pooled means. -/
theorem final0_apply (c : Dev nD) (b : Fin 32) (ch : Fin 256) :
    (dat0 V c).arrAt 1 cfg0.N (ix2 b ch)
      = (∑ j : Fin 4, ∑ l : Fin 1024, poolIn V c (ix3 b ch (lane4 j l))) * Ideal.ofBits .f32 0x39800000#32 :=
  congrFun ((dat0 V c).arrAt_eq_of_cover 1 (pooled V c) (pool_flushed_eq V c) pool_covered) (ix2 b ch)

end AtIdeal

end Cert.KernelIdeal.Hand

end
-- ==== Proof.KernelIdeal.ScaleValue.lean ====
import proofs.«131701_j49709951484604_1_alg».proof.Proof.KernelIdeal.Scale
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.Sem
open Idealize.ShloMosaic.Pipeline (Dat Cfg Window)

/-! # What the scaling region leaves in its result array

The region multiplies the input `x : [32, 256, 4096]` by the gate `g : [32, 256]` of its row and channel:
after the region the result array holds `x (b, ch, k) * g (b, ch)` at every index. Point `t` of the 4 × 8 grid
writes the block `[8, 256, 512]` at block index `(t / 8, 0, t % 8)`; the 32 blocks tile the array. -/

/-! ## The payload at an index -/

/-- The whole-buffer rectangles start at zero on every axis. -/
theorem scale_zero3 : (![0, 0, 0] : Fin 3 → Nat) = fun _ => 0 := funext fun a => by fin_cases a <;> rfl
theorem scale_zero2 : (![0, 0] : Fin 2 → Nat) = fun _ => 0 := funext fun a => by fin_cases a <;> rfl

/-- The gate block viewed as a column `[8, 256, 1]` and broadcast along the last axis reads, at `(p, q, r)`, the
    gate at `(p, q)`: the broadcast reads the column at `(p, q, 0)`, and `(p, q, 0)` of `[8, 256, 1]` has the
    row-major position of `(p, q)` of `[8, 256]`. -/
theorem scale_gate_column_apply (x1 : Vec Ideal S8x256 .f32) (p : Fin 8) (q : Fin 256) (r : Fin 512) :
    broadcastTo S8x256x512 (shapeCast S8x256x1 x1 shapeCasts_S8x256_S8x256x1) broadcasts_S8x256x1_S8x256x512 (ix3 p q r)
      = x1 (ix2 p q) := by
  refine (broadcastTo_apply _ _ (ix3 p q r) (ix3 p q (0 : Fin 1)) ?_).trans ?_
  · intro a
    match a with
    | ⟨0, _⟩ => rfl
    | ⟨1, _⟩ => rfl
    | ⟨2, _⟩ => rfl
  · refine shapeCast_apply _ _ _ (ix2 p q) ?_
    rw [Shape.rowMajor_val_two, Shape.rowMajor_val_three]
    show (p.val * 256 + q.val) = (p.val * 256 + q.val) * 1 + 0
    omega

/-- The body's payload at `(p, q, r)`: the input block there times the gate block at `(p, q)`. The two casts to
    the same shape are identities; the product is pointwise. -/
theorem scale_payload_apply (x0 : Vec Ideal S8x256x512 .f32) (x1 : Vec Ideal S8x256 .f32) (p : Fin 8) (q : Fin 256) (r : Fin 512) :
    k1_pay1 x1 x0 (ix3 p q r) = x0 (ix3 p q r) * x1 (ix2 p q) := by
  unfold k1_pay1
  show (shapeCast S8x256x512 x0 shapeCasts_S8x256x512_S8x256x512 (ix3 p q r))
      * (broadcastTo S8x256x512 (shapeCast S8x256x1 (shapeCast S8x256 x1 shapeCasts_S8x256_S8x256) shapeCasts_S8x256_S8x256x1) broadcasts_S8x256x1_S8x256x512 (ix3 p q r)) = _
  rw [shapeCast_self, shapeCast_self]
  exact congrArg (x0 (ix3 p q r) * ·) (scale_gate_column_apply x1 p q r)

/-! ## The block indices over the grid -/

/-- The grid is row-major, `t = 8 i + j`: the input's and the result's block index at point `t` is
    `(t / 8, 0, t % 8)`, the gate's `(t / 8, 0)`. Decided over the 32 points. -/
theorem scale_block_index : ∀ t : Fin cfg1.N,
    win1_0.index t (0 : Fin 3) = t.val / 8 ∧ win1_0.index t (1 : Fin 3) = 0 ∧ win1_0.index t (2 : Fin 3) = t.val % 8
    ∧ win1_1.index t (0 : Fin 2) = t.val / 8 ∧ win1_1.index t (1 : Fin 2) = 0
    ∧ win1_2.index t (0 : Fin 3) = t.val / 8 ∧ win1_2.index t (1 : Fin 3) = 0 ∧ win1_2.index t (2 : Fin 3) = t.val % 8 :=
  (by decide +kernel : ∀ t : Fin grid1.N, _)

variable (V : (c : Dev nD) → (b : Ref sig .tc) → Buf (Elt Ideal) ((c : Thread nD τ).loc b))

/-! ## The arrays, and the function the result array ends holding -/

/-- The input array as the region finds it, at its literal shape. -/
abbrev scaleIn (c : Dev nD) : Vec Ideal S32x256x4096 .f32 := V c main_v0
/-- The gate array as the region finds it, at its literal shape. -/
abbrev scaleGate (c : Dev nD) : Vec Ideal S32x256 .f32 := V c main_v16
/-- The input times the gate of its row and channel. -/
abbrev scaled (c : Dev nD) : Vec Ideal S32x256x4096 .f32 := fun i => scaleIn V c i * scaleGate V c (ix2 (i 0) (i 1))

/-! ## What a point writes back -/

/-- What point `t` writes back is block `t` of `scaled`. The one store over the whole buffer leaves its payload;
    the payload at `(p, q, r)` is the input block there times the gate block at `(p, q)`; a block's coordinate in
    its array is index × size + 1 × the coordinate inside the block, and the input's block index is the result's,
    the gate's its first two coordinates. -/
theorem scale_flushed_eq (c : Dev nD) (t : Fin cfg1.N) :
    (dat1 V c).flushed 2 t = ((cfg1.win 2).blk t).view.read (Elt Ideal) (scaled V c) := by
  show (cfg1.win 2).cut (grid1.coords t) ((dat1 V c).after 2 t) = _
  rw [after1_2]
  unfold out1_2
  rw [View.canon_unit_zero scale_zero3]
  simp only [View.ld_unit_zero (S := S8x256x512) scale_zero3, View.ld_unit_zero (S := S8x256) scale_zero2]
  obtain ⟨e0, e1, e2, e3, e4, e5, e6, e7⟩ := scale_block_index t
  funext j
  obtain ⟨p, q, r, rfl⟩ : ∃ (p : Fin 8) (q : Fin 256) (r : Fin 512), j = ix3 p q r := ⟨j 0, j 1, j 2, eq_ix3 j⟩
  show k1_pay1 (iblk1 V c 1 t) (iblk1 V c 0 t) (ix3 p q r) = scaled V c (((cfg1.win 2).blk t).view.emb (ix3 p q r))
  refine (scale_payload_apply (iblk1 V c 0 t) (iblk1 V c 1 t) p q r).trans ?_
  show scaleIn V c (((cfg1.win 0).blk t).view.emb (ix3 p q r)) * scaleGate V c (((cfg1.win 1).blk t).view.emb (ix2 p q))
      = scaleIn V c (((cfg1.win 2).blk t).view.emb (ix3 p q r))
        * scaleGate V c (ix2 ((((cfg1.win 2).blk t).view.emb (ix3 p q r)) 0) ((((cfg1.win 2).blk t).view.emb (ix3 p q r)) 1))
  have h0 : ((cfg1.win 0).blk t).view.emb (ix3 p q r) = ((cfg1.win 2).blk t).view.emb (ix3 p q r) := by
    funext a; apply Fin.ext
    match a with
    | ⟨0, _⟩ => show win1_0.index t (0 : Fin 3) * 8 + 1 * p.val = win1_2.index t (0 : Fin 3) * 8 + 1 * p.val; omega
    | ⟨1, _⟩ => show win1_0.index t (1 : Fin 3) * 256 + 1 * q.val = win1_2.index t (1 : Fin 3) * 256 + 1 * q.val; omega
    | ⟨2, _⟩ => show win1_0.index t (2 : Fin 3) * 512 + 1 * r.val = win1_2.index t (2 : Fin 3) * 512 + 1 * r.val; omega
  have h1 : ((cfg1.win 1).blk t).view.emb (ix2 p q)
      = ix2 ((((cfg1.win 2).blk t).view.emb (ix3 p q r)) 0) ((((cfg1.win 2).blk t).view.emb (ix3 p q r)) 1) := by
    funext a; apply Fin.ext
    match a with
    | ⟨0, _⟩ => show win1_1.index t (0 : Fin 2) * 8 + 1 * p.val = win1_2.index t (0 : Fin 3) * 8 + 1 * p.val; omega
    | ⟨1, _⟩ => show win1_1.index t (1 : Fin 2) * 256 + 1 * q.val = win1_2.index t (1 : Fin 3) * 256 + 1 * q.val; omega
  exact congrArg₂ (· * ·) (congrArg (scaleIn V c) h0) (congrArg (scaleGate V c) h1)

/-! ## The blocks tile the array -/

/-- An index of the result array is in point `t`'s block iff each coordinate is in the block's range on its axis. -/
theorem scale_mem_blk (t : Fin cfg1.N) (i : S32x256x4096.Idx) :
    i ∈ ((cfg1.win 2).blk t).view.set ↔ ∀ a : Fin 3, win1_2.index t a * S8x256x512.size a ≤ (i a).val ∧ (i a).val < win1_2.index t a * S8x256x512.size a + S8x256x512.size a := by
  show i ∈ ((View.whole main_v17).slice (win1_2.rect t)).set ↔ _
  rw [View.set_slice_whole, Rect.mem_set_unit]
  exact Iff.rfl

/-- Every index `(b, ch, k)` of the result array is in the block of the point `8 (b / 8) + k / 512`, which is
    written back. -/
theorem scale_covered (i : S32x256x4096.Idx) :
    ∃ t : Fin cfg1.N, (cfg1.win 2).flush t = true ∧ i ∈ ((cfg1.win 2).blk t).view.set := by
  have hi0 : (i 0).val < 32 := (i 0).isLt
  have hi1 : (i 1).val < 256 := (i 1).isLt
  have hi2 : (i 2).val < 4096 := (i 2).isLt
  have hlt : 8 * ((i 0).val / 8) + (i 2).val / 512 < cfg1.N := by
    show _ < grid1.N
    rw [N_1]; omega
  obtain ⟨e0, e1, e2, e3, e4, e5, e6, e7⟩ := scale_block_index ⟨8 * ((i 0).val / 8) + (i 2).val / 512, hlt⟩
  have e5' : win1_2.index ⟨8 * ((i 0).val / 8) + (i 2).val / 512, hlt⟩ (0 : Fin 3) = (8 * ((i 0).val / 8) + (i 2).val / 512) / 8 := e5
  have e7' : win1_2.index ⟨8 * ((i 0).val / 8) + (i 2).val / 512, hlt⟩ (2 : Fin 3) = (8 * ((i 0).val / 8) + (i 2).val / 512) % 8 := e7
  refine ⟨⟨8 * ((i 0).val / 8) + (i 2).val / 512, hlt⟩, flush1_2 _, ?_⟩
  rw [scale_mem_blk]
  intro a
  match a with
  | ⟨0, _⟩ =>
    show win1_2.index ⟨8 * ((i 0).val / 8) + (i 2).val / 512, hlt⟩ (0 : Fin 3) * 8 ≤ (i 0).val ∧ (i 0).val < win1_2.index ⟨8 * ((i 0).val / 8) + (i 2).val / 512, hlt⟩ (0 : Fin 3) * 8 + 8
    omega
  | ⟨1, _⟩ =>
    show win1_2.index ⟨8 * ((i 0).val / 8) + (i 2).val / 512, hlt⟩ (1 : Fin 3) * 256 ≤ (i 1).val ∧ (i 1).val < win1_2.index ⟨8 * ((i 0).val / 8) + (i 2).val / 512, hlt⟩ (1 : Fin 3) * 256 + 256
    omega
  | ⟨2, _⟩ =>
    show win1_2.index ⟨8 * ((i 0).val / 8) + (i 2).val / 512, hlt⟩ (2 : Fin 3) * 512 ≤ (i 2).val ∧ (i 2).val < win1_2.index ⟨8 * ((i 0).val / 8) + (i 2).val / 512, hlt⟩ (2 : Fin 3) * 512 + 512
    omega

/-! ## The result array after the region -/

/-- After the region the result array holds, at `(b, ch, k)`, the input there times the gate at `(b, ch)`: every
    point writes back its block of `scaled`, and the blocks cover the array. -/
theorem final1_apply (c : Dev nD) (b : Fin 32) (ch : Fin 256) (k : Fin 4096) :
    (dat1 V c).arrAt 2 cfg1.N (ValueIdx.ix3 b ch k) = scaleIn V c (ValueIdx.ix3 b ch k) * scaleGate V c (ValueIdx.ix2 b ch) :=
  congrFun ((dat1 V c).arrAt_eq_of_cover 2 (scaled V c) (fun t _ => scale_flushed_eq V c t) (scale_covered)) (ix3 b ch k)

end Cert.KernelIdeal.Hand

end
-- ==== Proof.Bridge.lean ====
/-
  The two programs compute one function over the extended reals.
  Kernel side: `Z` is `x` re-laid as [32, 256, 4096]; the pooled mean `P (b, c)` is the sum of `Z (b, c, ·)` taken as four
  runs of 1024 lanes, times `2⁻¹²`; the gate is `1 / (1 + exp (−(max (P·w1ᵀ + b1) 0 · w2ᵀ + b2)))`; the result is
  `Z (b, c, k) · gate (b, c)` re-laid as [32, 256, 64, 64].
  Reference side: the mean is the sum over the two trailing axes divided by 4096, the same gate, and
  `x (b, c, h, w) · gate (b, c)`.
-/
import proofs.«131701_j49709951484604_1_alg».proof.Defs
import proofs.«131701_j49709951484604_1_alg».proof.Proof.Gen.KernelIdeal
import proofs.«131701_j49709951484604_1_alg».proof.Proof.Gen.ReferenceIdeal.Read
import Idealize.ShloMosaic.Lib.ValueIdx
import Idealize.ShloMosaic.Lib.Pipeline.Value
import Idealize.ShloMosaic.PureOps.Ideal.Laws

noncomputable section

namespace Cert.Bridge

open Idealize.ShloMosaic Idealize.ShloMosaic.TcCoe Idealize.SL.Sem
open Cert.KernelIdeal Cert.KernelIdeal.Facts₀

/-- The gate as the kernel's host lines compute it from the pooled means `P`. -/
def gateK (P : (⟨S32x256, .f32⟩ : BufTy).Contents (Elt Ideal)) (w1 : (⟨S32x256, .f32⟩ : BufTy).Contents (Elt Ideal))
    (b1 : (⟨S32, .f32⟩ : BufTy).Contents (Elt Ideal)) (w2 : (⟨S256x32, .f32⟩ : BufTy).Contents (Elt Ideal))
    (b2 : (⟨S256, .f32⟩ : BufTy).Contents (Elt Ideal)) : (⟨S32x256, .f32⟩ : BufTy).Contents (Elt Ideal) :=
  Host.divf (broadcastInDim S32x256 ![] bcast_S_S32x256 (constant (F := Ideal) S_ .f32 0x3F800000#32))
    (addf (broadcastInDim S32x256 ![] bcast_S_S32x256 (constant (F := Ideal) S_ .f32 0x3F800000#32))
      (Host.exp (Host.negf (addf
        (Host.dotGeneral (φ₁ := .f32) (φ₂ := .f32) dot_S32x32_S256x32_S32x256_1_1_0_0_n_n (some .fp32)
          (maximumf (addf (Host.dotGeneral (φ₁ := .f32) (φ₂ := .f32) dot_S32x256_S32x256_S32x32_1_1_0_0_n_n (some .fp32) P w1)
              (broadcastInDim S32x32 ![0, 1] bcast_S1x32_S32x32_0_1 (broadcastInDim S1x32 ![1] bcast_S32_S1x32_1 b1)))
            (broadcastInDim S32x32 ![] bcast_S_S32x32 (constant (F := Ideal) S_ .f32 0x00000000#32))) w2)
        (broadcastInDim S32x256 ![0, 1] bcast_S1x256_S32x256_0_1 (broadcastInDim S1x256 ![1] bcast_S256_S1x256_1 b2))))))

/-- Lane `1024 j + l` of the re-laid trailing axis. -/
abbrev lane (j : Fin 4) (l : Fin 1024) : Fin 4096 := ⟨1024 * j.val + l.val, by have := j.isLt; have := l.isLt; omega⟩

/-! ## Indices -/

/-- The re-laid array at lane `k` of row `(b, c)` is `x` at `(b, c, k / 64, k % 64)`: the same row-major position. -/
theorem relaid_apply (x : (⟨S32x256x64x64, .f32⟩ : BufTy).Contents (Elt Ideal)) (b : Fin 32) (c : Fin 256) (k : Fin 4096) :
    shapeCast S32x256x4096 x shapeCasts_S32x256x64x64_S32x256x4096 (ValueIdx.ix3 b c k)
      = x (ValueIdx.ix4 b c ⟨k.val / 64, by have := k.isLt; omega⟩ ⟨k.val % 64, by omega⟩) := by
  refine shapeCast_apply x _ _ _ ?_
  rw [Shape.rowMajor_val_four, Shape.rowMajor_val_three]
  show ((b.val * 256 + c.val) * 64 + k.val / 64) * 64 + k.val % 64 = (b.val * 256 + c.val) * 4096 + k.val
  omega

/-! ## The pooled sum: four runs of 1024 lanes against 64 rows of 64 -/

/-- Lane `1024 j + l` is row `h`, column `w` with `64 h + w = 1024 j + l`: a bijection of the two index pairs. -/
def laneEquiv : Fin 4 × Fin 1024 ≃ Fin 64 × Fin 64 where
  toFun p := (⟨(1024 * p.1.val + p.2.val) / 64, by have := p.1.isLt; have := p.2.isLt; omega⟩,
    ⟨(1024 * p.1.val + p.2.val) % 64, by omega⟩)
  invFun q := (⟨(64 * q.1.val + q.2.val) / 1024, by have := q.1.isLt; have := q.2.isLt; omega⟩,
    ⟨(64 * q.1.val + q.2.val) % 1024, by omega⟩)
  left_inv p := by
    obtain ⟨j, l⟩ := p
    have hj := j.isLt
    have hl := l.isLt
    refine Prod.ext (Fin.ext ?_) (Fin.ext ?_)
    · show (64 * ((1024 * j.val + l.val) / 64) + (1024 * j.val + l.val) % 64) / 1024 = j.val
      omega
    · show (64 * ((1024 * j.val + l.val) / 64) + (1024 * j.val + l.val) % 64) % 1024 = l.val
      omega
  right_inv q := by
    obtain ⟨h, w⟩ := q
    have hh := h.isLt
    have hw := w.isLt
    refine Prod.ext (Fin.ext ?_) (Fin.ext ?_)
    · show (1024 * ((64 * h.val + w.val) / 1024) + (64 * h.val + w.val) % 1024) / 64 = h.val
      omega
    · show (1024 * ((64 * h.val + w.val) / 1024) + (64 * h.val + w.val) % 1024) % 64 = w.val
      omega

/-- The kernel's double sum over runs and lanes of the re-laid array is the double sum over rows and columns of `x`
    (addition of extended reals is commutative and associative; the terms are matched by `laneEquiv`). -/
theorem lanes_sum (x : (⟨S32x256x64x64, .f32⟩ : BufTy).Contents (Elt Ideal)) (b : Fin 32) (c : Fin 256) :
    (∑ j : Fin 4, ∑ l : Fin 1024, shapeCast S32x256x4096 x shapeCasts_S32x256x64x64_S32x256x4096 (ValueIdx.ix3 b c (lane j l)))
      = ∑ q : Fin 64 × Fin 64, x (ValueIdx.ix4 b c q.1 q.2) := by
  rw [← Fintype.sum_prod_type (f := fun p : Fin 4 × Fin 1024 =>
    shapeCast S32x256x4096 x shapeCasts_S32x256x64x64_S32x256x4096 (ValueIdx.ix3 b c (lane p.1 p.2)))]
  refine Fintype.sum_equiv laneEquiv _ _ fun p => ?_
  rw [relaid_apply]
  rfl

/-! ## The reference's sum over the two trailing axes -/

/-- Dropping the two trailing axes of `(b, c, h, w)` leaves `(b, c)`; -/
theorem drop_ix4 (b : Fin 32) (c : Fin 256) (h w : Fin 64) :
    Cert.ReferenceIdeal.Facts₀.reducesTo_S32x256x64x64_S32x256_d2_3.drop (ValueIdx.ix4 b c h w) = ValueIdx.ix2 b c := by
  funext a
  match a with
  | ⟨0, _⟩ => rfl
  | ⟨1, _⟩ => rfl

/-- the indices of row `(b, c)`, one for each `(h, w)`; -/
def rowEmb (b : Fin 32) (c : Fin 256) : Fin 64 × Fin 64 ↪ Cert.ReferenceIdeal.S32x256x64x64.Idx :=
  ⟨fun q => ValueIdx.ix4 b c q.1 q.2, fun q q' e => Prod.ext (congrFun e 2) (congrFun e 3)⟩

/-- and they are all the indices that drop to `(b, c)`. -/
theorem filter_drop (b : Fin 32) (c : Fin 256) :
    Finset.univ.filter (fun i : Cert.ReferenceIdeal.S32x256x64x64.Idx =>
        Cert.ReferenceIdeal.Facts₀.reducesTo_S32x256x64x64_S32x256_d2_3.drop i = ValueIdx.ix2 b c)
      = Finset.univ.map (rowEmb b c) := by
  ext i
  simp only [Finset.mem_filter, Finset.mem_univ, true_and, Finset.mem_map, rowEmb, Function.Embedding.coeFn_mk]
  constructor
  · intro e
    obtain ⟨b', c', h, w, rfl⟩ : ∃ b' c' h w, i = ValueIdx.ix4 b' c' h w := ⟨i 0, i 1, i 2, i 3, ValueIdx.eq_ix4 i⟩
    rw [drop_ix4] at e
    obtain rfl : b' = b := congrFun e 0
    obtain rfl : c' = c := congrFun e 1
    exact ⟨(h, w), rfl⟩
  · rintro ⟨q, rfl⟩
    exact drop_ix4 b c q.1 q.2

/-- The reference's reduce at `(b, c)`: zero plus the sum over rows and columns. -/
theorem refsum_apply (x : (⟨S32x256x64x64, .f32⟩ : BufTy).Contents (Elt Ideal)) (b : Fin 32) (c : Fin 256) :
    Host.reduceAdd x (constant (F := Ideal) Cert.ReferenceIdeal.S_ .f32 0x00000000#32)
        Cert.ReferenceIdeal.Facts₀.reducesTo_S32x256x64x64_S32x256_d2_3 Cert.ReferenceIdeal.Facts₀.h_S_ (ValueIdx.ix2 b c)
      = ∑ q : Fin 64 × Fin 64, x (ValueIdx.ix4 b c q.1 q.2) := by
  show Ideal.hostReduceAdd _ x (Ideal.ofBits .f32 0x00000000#32) (ValueIdx.ix2 b c) = _
  unfold Ideal.hostReduceAdd
  rw [filter_drop, Finset.sum_map, show Ideal.ofBits .f32 0x00000000#32 = 0 by simp [Ideal.ofBits, Ideal.ieee], zero_add]
  rfl

/-! ## The mean -/

/-- The word `0x45800000` is the real `4096`, -/
theorem ofBits_4096 : Ideal.ofBits .f32 0x45800000#32 = ((4096 : ℝ) : EReal) := by
  simp [Ideal.ofBits, Ideal.ieee, -EReal.coe_mul]; norm_num

/-- and `0x39800000` is `2⁻¹²`, its reciprocal. -/
theorem ofBits_inv4096 : Ideal.ofBits .f32 0x39800000#32 = ((1 / 4096 : ℝ) : EReal) := by
  simp [Ideal.ofBits, Ideal.ieee, -EReal.coe_mul]; norm_num

/-- THE MEAN: the reference's sum over the trailing axes divided by 4096 is the kernel's pooled sum times `2⁻¹²`
    (division by a nonzero real is the product with its reciprocal on every extended real). -/
theorem mean_apply (x : (⟨S32x256x64x64, .f32⟩ : BufTy).Contents (Elt Ideal))
    (P : (⟨S32x256, .f32⟩ : BufTy).Contents (Elt Ideal))
    (hP : ∀ (b : Fin 32) (c : Fin 256), P (ValueIdx.ix2 b c)
      = (∑ j : Fin 4, ∑ l : Fin 1024, shapeCast S32x256x4096 x shapeCasts_S32x256x64x64_S32x256x4096 (ValueIdx.ix3 b c (lane j l)))
          * Ideal.ofBits .f32 0x39800000#32)
    (b : Fin 32) (c : Fin 256) :
    Cert.ReferenceIdeal.Read.val_main_v2 (F := Ideal) x (ValueIdx.ix2 b c) = P (ValueIdx.ix2 b c) := by
  show Ideal.div (Host.reduceAdd x (constant (F := Ideal) Cert.ReferenceIdeal.S_ .f32 0x00000000#32)
      Cert.ReferenceIdeal.Facts₀.reducesTo_S32x256x64x64_S32x256_d2_3 Cert.ReferenceIdeal.Facts₀.h_S_ (ValueIdx.ix2 b c))
    (Ideal.ofBits .f32 0x45800000#32) = _
  rw [refsum_apply, hP, lanes_sum, ofBits_4096, Ideal.div_coe (by norm_num : (4096 : ℝ) ≠ 0), ofBits_inv4096]

/-! ## The gate -/

/-- The reference's gate is the kernel's gate of the reference's mean: the two host chains are the same operations
    (at the extended reals a `dot_general` is the exact sum of products whatever precision it names). -/
theorem gate_ref (x : (⟨S32x256x64x64, .f32⟩ : BufTy).Contents (Elt Ideal)) (w1 : (⟨S32x256, .f32⟩ : BufTy).Contents (Elt Ideal))
    (b1 : (⟨S32, .f32⟩ : BufTy).Contents (Elt Ideal)) (w2 : (⟨S256x32, .f32⟩ : BufTy).Contents (Elt Ideal))
    (b2 : (⟨S256, .f32⟩ : BufTy).Contents (Elt Ideal)) :
    Cert.ReferenceIdeal.Read.val_main_v17 (F := Ideal) x w1 b1 w2 b2
      = gateK (Cert.ReferenceIdeal.Read.val_main_v2 (F := Ideal) x) w1 b1 w2 b2 := rfl

/-- Row `h`, column `w` of `x` is lane `64 h + w` of the re-laid array. -/
theorem relaid_hw (x : (⟨S32x256x64x64, .f32⟩ : BufTy).Contents (Elt Ideal)) (b : Fin 32) (c : Fin 256) (h w : Fin 64) :
    shapeCast S32x256x4096 x shapeCasts_S32x256x64x64_S32x256x4096
        (ValueIdx.ix3 b c (⟨64 * h.val + w.val, by have := h.isLt; have := w.isLt; omega⟩ : Fin 4096))
      = x (ValueIdx.ix4 b c h w) := by
  refine shapeCast_apply x _ _ _ ?_
  rw [Shape.rowMajor_val_four, Shape.rowMajor_val_three]
  show ((b.val * 256 + c.val) * 64 + h.val) * 64 + w.val = (b.val * 256 + c.val) * 4096 + (64 * h.val + w.val)
  omega

/-- The result re-laid as [32, 256, 64, 64] at `(b, c, h, w)` is `Y` at lane `64 h + w` of row `(b, c)`. -/
theorem result_apply (Y : (⟨S32x256x4096, .f32⟩ : BufTy).Contents (Elt Ideal)) (b : Fin 32) (c : Fin 256) (h w : Fin 64) :
    shapeCast S32x256x64x64 Y shapeCasts_S32x256x4096_S32x256x64x64 (ValueIdx.ix4 b c h w)
      = Y (ValueIdx.ix3 b c (⟨64 * h.val + w.val, by have := h.isLt; have := w.isLt; omega⟩ : Fin 4096)) := by
  refine shapeCast_apply Y _ _ _ ?_
  rw [Shape.rowMajor_val_four, Shape.rowMajor_val_three]
  show (b.val * 256 + c.val) * 4096 + (64 * h.val + w.val) = ((b.val * 256 + c.val) * 64 + h.val) * 64 + w.val
  omega

/-- The gate's index under the two broadcasts at `(b, c, h, w)` is `(b, c)`. -/
theorem gate_idx (b : Fin 32) (c : Fin 256) (h w : Fin 64) :
    Cert.ReferenceIdeal.Read.idx_main_v18 (Cert.ReferenceIdeal.Read.idx_main_v19 (ValueIdx.ix4 b c h w)) = ValueIdx.ix2 b c := by
  funext a
  match a with
  | ⟨0, _⟩ => rfl
  | ⟨1, _⟩ => rfl

/-- THE BRIDGE. For any inputs, any `P` that is the pooled mean in the kernel's form and any `Y` that is the gated
    re-laid input, the reference's result is `Y` re-laid as [32, 256, 64, 64]. -/
theorem bridge (x : (⟨S32x256x64x64, .f32⟩ : BufTy).Contents (Elt Ideal)) (w1 : (⟨S32x256, .f32⟩ : BufTy).Contents (Elt Ideal))
    (b1 : (⟨S32, .f32⟩ : BufTy).Contents (Elt Ideal)) (w2 : (⟨S256x32, .f32⟩ : BufTy).Contents (Elt Ideal))
    (b2 : (⟨S256, .f32⟩ : BufTy).Contents (Elt Ideal))
    (P : (⟨S32x256, .f32⟩ : BufTy).Contents (Elt Ideal)) (Y : (⟨S32x256x4096, .f32⟩ : BufTy).Contents (Elt Ideal))
    (hP : ∀ (b : Fin 32) (c : Fin 256), P (ValueIdx.ix2 b c)
      = (∑ j : Fin 4, ∑ l : Fin 1024, shapeCast S32x256x4096 x shapeCasts_S32x256x64x64_S32x256x4096 (ValueIdx.ix3 b c (lane j l)))
          * Ideal.ofBits .f32 0x39800000#32)
    (hY : ∀ (b : Fin 32) (c : Fin 256) (k : Fin 4096), Y (ValueIdx.ix3 b c k)
      = shapeCast S32x256x4096 x shapeCasts_S32x256x64x64_S32x256x4096 (ValueIdx.ix3 b c k) * gateK P w1 b1 w2 b2 (ValueIdx.ix2 b c)) :
    mulf x (broadcastInDim Cert.ReferenceIdeal.S32x256x64x64 ![0, 1, 2, 3] Cert.ReferenceIdeal.Facts₀.bcast_S32x256x1x1_S32x256x64x64_0_1_2_3 (broadcastInDim Cert.ReferenceIdeal.S32x256x1x1 ![0, 1] Cert.ReferenceIdeal.Facts₀.bcast_S32x256_S32x256x1x1_0_1 (Host.divf (broadcastInDim Cert.ReferenceIdeal.S32x256 ![] Cert.ReferenceIdeal.Facts₀.bcast_S_S32x256 (constant (F := Ideal) Cert.ReferenceIdeal.S_ .f32 0x3F800000#32)) (addf (broadcastInDim Cert.ReferenceIdeal.S32x256 ![] Cert.ReferenceIdeal.Facts₀.bcast_S_S32x256 (constant (F := Ideal) Cert.ReferenceIdeal.S_ .f32 0x3F800000#32)) (Host.exp (Host.negf (addf (Host.dotGeneral (φ₁ := .f32) (φ₂ := .f32) Cert.ReferenceIdeal.dot_S32x32_S256x32_S32x256_1_1_0_0_n_n none (maximumf (addf (Host.dotGeneral (φ₁ := .f32) (φ₂ := .f32) Cert.ReferenceIdeal.dot_S32x256_S32x256_S32x32_1_1_0_0_n_n none (Host.divf (Host.reduceAdd x (constant (F := Ideal) Cert.ReferenceIdeal.S_ .f32 0x00000000#32) Cert.ReferenceIdeal.Facts₀.reducesTo_S32x256x64x64_S32x256_d2_3 Cert.ReferenceIdeal.Facts₀.h_S_) (broadcastInDim Cert.ReferenceIdeal.S32x256 ![] Cert.ReferenceIdeal.Facts₀.bcast_S_S32x256 (constant (F := Ideal) Cert.ReferenceIdeal.S_ .f32 0x45800000#32))) w1) (broadcastInDim Cert.ReferenceIdeal.S32x32 ![0, 1] Cert.ReferenceIdeal.Facts₀.bcast_S1x32_S32x32_0_1 (broadcastInDim Cert.ReferenceIdeal.S1x32 ![1] Cert.ReferenceIdeal.Facts₀.bcast_S32_S1x32_1 b1))) (broadcastInDim Cert.ReferenceIdeal.S32x32 ![] Cert.ReferenceIdeal.Facts₀.bcast_S_S32x32 (constant (F := Ideal) Cert.ReferenceIdeal.S_ .f32 0x00000000#32))) w2) (broadcastInDim Cert.ReferenceIdeal.S32x256 ![0, 1] Cert.ReferenceIdeal.Facts₀.bcast_S1x256_S32x256_0_1 (broadcastInDim Cert.ReferenceIdeal.S1x256 ![1] Cert.ReferenceIdeal.Facts₀.bcast_S256_S1x256_1 b2)))))))))
      = shapeCast S32x256x64x64 Y shapeCasts_S32x256x4096_S32x256x64x64 := by
  have hmean : Cert.ReferenceIdeal.Read.val_main_v2 (F := Ideal) x = P := funext fun i => by
    obtain ⟨b, c, rfl⟩ : ∃ b c, i = ValueIdx.ix2 b c := ⟨i 0, i 1, ValueIdx.eq_ix2 i⟩
    exact mean_apply x P hP b c
  refine (Cert.ReferenceIdeal.Read.val_main_v20_eq (F := Ideal) x w1 b1 w2 b2).trans ?_
  funext i
  obtain ⟨b, c, h, w, rfl⟩ : ∃ b c h w, i = ValueIdx.ix4 b c h w := ⟨i 0, i 1, i 2, i 3, ValueIdx.eq_ix4 i⟩
  rw [Cert.ReferenceIdeal.Read.val_main_v20_apply, Cert.ReferenceIdeal.Read.val_main_v19_apply,
    Cert.ReferenceIdeal.Read.val_main_v18_apply, gate_idx, gate_ref, hmean, result_apply, hY, relaid_hw]
  rfl

end Cert.Bridge

end
-- ==== Proof.KernelIdeal.Result.lean ====
/-
  What the run leaves in the result buffer, at the extended reals: the scaled array re-laid as [32, 256, 64, 64], where
  the scaling region finds the re-laid input and the gate the host lines compute from the pooled means, and the pooling
  region finds the re-laid input.
-/
import proofs.«131701_j49709951484604_1_alg».proof.Proof.Gen.KernelIdeal.Launch
import proofs.«131701_j49709951484604_1_alg».proof.Proof.Gen.KernelIdeal.Skeleton
import proofs.«131701_j49709951484604_1_alg».proof.Proof.Gen.KernelIdeal.Points
import proofs.«131701_j49709951484604_1_alg».proof.Proof.KernelIdeal.Frame
import proofs.«131701_j49709951484604_1_alg».proof.Proof.KernelIdeal.PoolValue
import proofs.«131701_j49709951484604_1_alg».proof.Proof.KernelIdeal.ScaleValue
import proofs.«131701_j49709951484604_1_alg».proof.Proof.Bridge
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- The pooling region's result array after the region. -/
abbrev poolOut (c : Dev nD) : Vec Ideal S32x256 .f32 := (dat0 (V1 m ρ) c).arrAt 1 cfg0.N
/-- The scaling region's result array after the region. -/
abbrev scaleOut (c : Dev nD) : Vec Ideal S32x256x4096 .f32 := (dat1 (V5 m ρ) c).arrAt 2 cfg1.N
/-- The input, re-laid as [32, 256, 4096]. -/
abbrev relaid (c : Dev nD) : Vec Ideal S32x256x4096 .f32 :=
  shapeCast S32x256x4096 (m ((c : Thread nD τ).loc main_arg0)) Facts₀.shapeCasts_S32x256x64x64_S32x256x4096

/-- The pooling region finds the re-laid input. -/
theorem V1_in (c : Dev nD) : (V1 m ρ c main_v0 : Vec Ideal S32x256x4096 .f32) = relaid m c := by
  show StableHlo.after hostOps0 (W0 m ρ c) (Proc.devRef .tc main_v0) = _
  after_results
  rfl

/-- So does the scaling region: nothing in between writes it. -/
theorem V5_in (c : Dev nD) : (V5 m ρ c main_v0 : Vec Ideal S32x256x4096 .f32) = relaid m c := by
  have e : W5 m ρ c main_v0 = W2 m ρ c main_v0 :=
    (StableHlo.after_of_writes_sub hostOps1_2 _ hostOps1_2_writes (by decide)).trans <|
    (StableHlo.after_of_writes_sub hostOps1_1 _ hostOps1_1_writes (by decide)).trans <|
    (StableHlo.after_of_writes_sub hostOps1 _ hostOps1_writes (by decide))
  refine e.trans ((W2_arr m ρ c 0).trans ?_)
  exact ((dat0 (V1 m ρ) c).arrAt_in 0 rfl _).trans ((A_eq0 (V1 m ρ) c 0).trans (V1_in m ρ c))

/-- An argument is still as launched when the host lines between the regions read it. -/
theorem W2_arg (c : Dev nD) (r : Ref sig .tc) (h0 : r ∉ hostOps0_W) (hs0 : ∀ w, Pipeline.arrRef spec0 w ≠ r) :
    W2 m ρ c r = m ((c : Thread nD τ).loc r) :=
  (W2_of_ne m ρ c r hs0).trans <| (StableHlo.after_of_writes_sub hostOps0 _ hostOps0_writes h0).trans rfl

/-- The scaling region finds the gate the host lines compute from the pooled means. -/
theorem V5_gate (c : Dev nD) : (V5 m ρ c main_v16 : Vec Ideal S32x256 .f32)
    = Cert.Bridge.gateK (poolOut m ρ c) (m ((c : Thread nD τ).loc main_arg1)) (m ((c : Thread nD τ).loc main_arg2))
        (m ((c : Thread nD τ).loc main_arg3)) (m ((c : Thread nD τ).loc main_arg4)) := by
  show StableHlo.after hostOps1_2 (StableHlo.after hostOps1_1 (StableHlo.after hostOps1 (W2 m ρ c))) (Proc.devRef .tc main_v16) = _
  after_results
  rw [show W2 m ρ c (Proc.devRef .tc main_v1) = poolOut m ρ c from W2_arr m ρ c 1,
    show W2 m ρ c (Proc.devRef .tc main_arg1) = m ((c : Thread nD τ).loc main_arg1) from W2_arg m ρ c main_arg1 (by decide) (by decide),
    show W2 m ρ c (Proc.devRef .tc main_arg2) = m ((c : Thread nD τ).loc main_arg2) from W2_arg m ρ c main_arg2 (by decide) (by decide),
    show W2 m ρ c (Proc.devRef .tc main_arg3) = m ((c : Thread nD τ).loc main_arg3) from W2_arg m ρ c main_arg3 (by decide) (by decide),
    show W2 m ρ c (Proc.devRef .tc main_arg4) = m ((c : Thread nD τ).loc main_arg4) from W2_arg m ρ c main_arg4 (by decide) (by decide)]
  rfl

/-- The result buffer ends at the scaled array, re-laid. -/
theorem W7_result (c : Dev nD) :
    W7 m ρ c main_v18 = shapeCast S32x256x64x64 (scaleOut m ρ c) Facts₀.shapeCasts_S32x256x4096_S32x256x64x64 := by
  show StableHlo.after hostOps2 (W6 m ρ c) (Proc.devRef .tc main_v18) = _
  after_results
  rw [show W6 m ρ c (Proc.devRef .tc main_v17) = scaleOut m ρ c from W6_arr m ρ c 2]
  rfl

/-- The pooled means in the form the two sides are joined through. -/
theorem poolOut_apply (c : Dev nD) (b : Fin 32) (ch : Fin 256) :
    poolOut m ρ c (ix2 b ch)
      = (∑ j : Fin 4, ∑ l : Fin 1024, relaid m c (ix3 b ch (Cert.Bridge.lane j l))) * Ideal.ofBits .f32 0x39800000#32 := by
  refine (final0_apply (V1 m ρ) c b ch).trans ?_
  rw [show poolIn (V1 m ρ) c = relaid m c from V1_in m ρ c]

/-- The scaled array: the re-laid input times the gate of its row and channel. -/
theorem scaleOut_apply (c : Dev nD) (b : Fin 32) (ch : Fin 256) (k : Fin 4096) :
    scaleOut m ρ c (ix3 b ch k)
      = relaid m c (ix3 b ch k) * Cert.Bridge.gateK (poolOut m ρ c) (m ((c : Thread nD τ).loc main_arg1)) (m ((c : Thread nD τ).loc main_arg2))
          (m ((c : Thread nD τ).loc main_arg3)) (m ((c : Thread nD τ).loc main_arg4)) (ix2 b ch) := by
  refine (final1_apply (V5 m ρ) c b ch k).trans ?_
  rw [show scaleIn (V5 m ρ) c = relaid m c from V5_in m ρ c,
    show scaleGate (V5 m ρ) c = Cert.Bridge.gateK (poolOut m ρ c) (m ((c : Thread nD τ).loc main_arg1)) (m ((c : Thread nD τ).loc main_arg2))
      (m ((c : Thread nD τ).loc main_arg3)) (m ((c : Thread nD τ).loc main_arg4)) from V5_gate m ρ c]

/-- THE VALUE RUN: every weakly fair execution of @main terminates with the result buffer at the scaled array re-laid
    and the five arguments as launched. -/
theorem run_value : θ_run defs (onTc (τ := τ) (main (F := Ideal))) ⟨m, fun _ => 0, ρ⟩ (fun r => ∀ c : Dev nD,
      r.2.mem ((c.tc : Thread nD τ).loc main_v18) = shapeCast S32x256x64x64 (scaleOut m ρ c) Facts₀.shapeCasts_S32x256x4096_S32x256x64x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v18 (by decide))).trans (W7_result m ρ c),
     (h c _ (mem_uc main_arg0 (by decide))).trans (W7_arg m ρ c main_arg0 (by decide) (by decide) (by decide) (by decide) (by decide) (by decide) (by decide)),
     (h c _ (mem_uc main_arg1 (by decide))).trans (W7_arg m ρ c main_arg1 (by decide) (by decide) (by decide) (by decide) (by decide) (by decide) (by decide)),
     (h c _ (mem_uc main_arg2 (by decide))).trans (W7_arg m ρ c main_arg2 (by decide) (by decide) (by decide) (by decide) (by decide) (by decide) (by decide)),
     (h c _ (mem_uc main_arg3 (by decide))).trans (W7_arg m ρ c main_arg3 (by decide) (by decide) (by decide) (by decide) (by decide) (by decide) (by decide)),
     (h c _ (mem_uc main_arg4 (by decide))).trans (W7_arg m ρ c main_arg4 (by decide) (by decide) (by decide) (by decide) (by decide) (by decide) (by decide))⟩)
    (run_all m ρ)

end Cert.KernelIdeal.Hand

end
-- ==== Proof.lean ====
/-
  The certificate. Both programs are `x · σ(max(mean(x)·w1ᵀ + b1, 0)·w2ᵀ + b2)`, the mean over the 4096 trailing entries
  of each (row, channel) and `σ(u) = 1 / (1 + exp(−u))`.
  The kernel takes the mean as a sum, accumulated over four grid steps of 1024 lanes, times the literal `2⁻¹²`; the
  reference as a sum over the two trailing axes divided by 4096. Over the extended reals the two agree at every input:
  addition is commutative and associative, so the grouping of the sum does not matter, and dividing by 4096 is
  multiplying by `2⁻¹²` on every extended real, the infinities included. The gate is the same chain of host operations on
  both sides (a `dot_general`'s precision attribute has no meaning at the exact reals), and the last product is taken
  entry by entry of the same two arrays, on [32, 256, 4096] re-laid to [32, 256, 64, 64] by the kernel and directly on
  [32, 256, 64, 64] by the reference. No step uses the finiteness of the inputs.
  The three frames: each program terminates without a fault and leaves its arguments as launched. For the two kernel
  programs this is the run of @main as seven segments (host lines, the pooling region, three stretches of host lines, the
  scaling region, the last re-laying), the pooling region's accumulator carried between grid points by the region's
  invariant; for the reference it is its run with the result dropped. The idealization rewrote nothing.
-/
import proofs.«131701_j49709951484604_1_alg».proof.Defs
import proofs.«131701_j49709951484604_1_alg».proof.Proof.Kernel.Frame
import proofs.«131701_j49709951484604_1_alg».proof.Proof.KernelIdeal.Result
import proofs.«131701_j49709951484604_1_alg».proof.Proof.Gen.ReferenceIdeal.Run
import proofs.«131701_j49709951484604_1_alg».proof.Proof.Gen.Pre_finite_inputs
import proofs.«131701_j49709951484604_1_alg».proof.Proof.Bridge

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the extended reals the kernel's result buffer ends at the gated re-laid input, re-laid back, and the reference's at
    its own term of arguments that agree: one function of the arguments. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact Cert.Bridge.bridge _ _ _ _ _ (Cert.KernelIdeal.Hand.poolOut m ρ c) (Cert.KernelIdeal.Hand.scaleOut m ρ c)
    (Cert.KernelIdeal.Hand.poolOut_apply m ρ c) (Cert.KernelIdeal.Hand.scaleOut_apply m ρ c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
